-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x512x512 : Shape := ⟨4, ![16, 19, 512, 512]⟩
abbrev S16x512x512 : Shape := ⟨3, ![16, 512, 512]⟩
abbrev S19x19 : Shape := ⟨2, ![19, 19]⟩
abbrev S_ : Shape := ⟨0, ![]⟩

class Facts : Prop where
  bcast_S_S16x19x512x512 : S_.BroadcastsInDim S16x19x512x512 (![] : Fin 0 → Fin S16x19x512x512.rank)
  reducesTo_S16x19x512x512_S_d0_1_2_3 : S16x19x512x512.ReducesTo [0, 1, 2, 3] S_
  h_S_ : 0 < S_.numel
  bcast_S_S19x19 : S_.BroadcastsInDim S19x19 (![] : Fin 0 → Fin S19x19.rank)
  reducesTo_S19x19_S_d0_1 : S19x19.ReducesTo [0, 1] S_
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x19x512x512 .f32) (main_arg1 : IVec S16x512x512 32) (main_arg2 : FVec F S19x19 .f32) : IVec S_ 1 :=
  let main_v0 : FVec F S16x19x512x512 .f32 := Host.absf main_arg0
  let main_cst : FVec F S_ .f32 := constant S_ .f32 0x7F800000#32
  let main_v1 : FVec F S16x19x512x512 .f32 := broadcastInDim S16x19x512x512 ![] bcast_S_S16x19x512x512 main_cst
  let main_v2 : IVec S16x19x512x512 1 := cmpf .olt main_v0 main_v1
  let main_c : IVec S_ 1 := constantI S_ 1 1#1
  let main_v3 : IVec S_ 1 := (fun x v => Host.reduce IntOp.andi x v reducesTo_S16x19x512x512_S_d0_1_2_3 h_S_) main_v2 main_c
  let main_v4 : FVec F S19x19 .f32 := Host.absf main_arg2
  let main_cst_0 : FVec F S_ .f32 := constant S_ .f32 0x7F800000#32
  let main_v5 : FVec F S19x19 .f32 := broadcastInDim S19x19 ![] bcast_S_S19x19 main_cst_0
  let main_v6 : IVec S19x19 1 := cmpf .olt main_v4 main_v5
  let main_c_1 : IVec S_ 1 := constantI S_ 1 1#1
  let main_v7 : IVec S_ 1 := (fun x v => Host.reduce IntOp.andi x v reducesTo_S19x19_S_d0_1 h_S_) main_v6 main_c_1
  let main_v8 : IVec S_ 1 := andi main_v3 main_v7
  let main_c_2 : IVec S_ 32 := constantI S_ 32 0#32
  let main_v9 : IVec S16x512x512 32 := broadcastInDim S16x512x512 ![] bcast_S_S16x512x512 main_c_2
  let main_v10 : IVec S16x512x512 1 := cmpi .sge main_arg1 main_v9
  let main_c_3 : IVec S_ 32 := constantI S_ 32 19#32
  let main_v11 : IVec S16x512x512 32 := broadcastInDim S16x512x512 ![] bcast_S_S16x512x512 main_c_3
  let main_v12 : IVec S16x512x512 1 := cmpi .slt main_arg1 main_v11
  let main_v13 : IVec S16x512x512 1 := andi main_v10 main_v12
  let main_c_4 : IVec S_ 1 := constantI S_ 1 1#1
  let main_v14 : IVec S_ 1 := (fun x v => Host.reduce IntOp.andi x v reducesTo_S16x512x512_S_d0_1_2 h_S_) main_v13 main_c_4
  let main_v15 : IVec S_ 1 := andi main_v8 main_v14
  main_v15
-- ==== Kernel.lean ====
abbrev S16x19x512x512 : Shape := ⟨4, ![16, 19, 512, 512]⟩
abbrev S16x512x512 : Shape := ⟨3, ![16, 512, 512]⟩
abbrev S19x19 : Shape := ⟨2, ![19, 19]⟩
abbrev S16x19x262144 : Shape := ⟨3, ![16, 19, 262144]⟩
abbrev S16x1x262144 : Shape := ⟨3, ![16, 1, 262144]⟩
abbrev S_ : Shape := ⟨0, ![]⟩
abbrev S19 : Shape := ⟨1, ![19]⟩
abbrev S19x1 : Shape := ⟨2, ![19, 1]⟩
abbrev S16x1x128 : Shape := ⟨3, ![16, 1, 128]⟩
abbrev S1x19x8192 : Shape := ⟨3, ![1, 19, 8192]⟩
abbrev S1x1x8192 : Shape := ⟨3, ![1, 1, 8192]⟩
abbrev S1x1x128 : Shape := ⟨3, ![1, 1, 128]⟩
abbrev S19x8192 : Shape := ⟨2, ![19, 8192]⟩
abbrev S8192 : Shape := ⟨1, ![8192]⟩
abbrev S1x8192 : Shape := ⟨2, ![1, 8192]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 32
  | .vmem => 9
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S19x19, .f32⟩
  | .hbm, ⟨3, _⟩ => ⟨S16x19x262144, .f32⟩
  | .hbm, ⟨4, _⟩ => ⟨S16x1x262144, .i32⟩
  | .hbm, ⟨5, _⟩ => ⟨S_, .f32⟩
  | .hbm, ⟨6, _⟩ => ⟨S19, .f32⟩
  | .hbm, ⟨7, _⟩ => ⟨S_, .f32⟩
  | .hbm, ⟨8, _⟩ => ⟨S19, .f32⟩
  | .hbm, ⟨9, _⟩ => ⟨S19, .f32⟩
  | .hbm, ⟨10, _⟩ => ⟨S19x1, .f32⟩
  | .hbm, ⟨11, _⟩ => ⟨S19x19, .f32⟩
  | .hbm, ⟨12, _⟩ => ⟨S19x19, .f32⟩
  | .hbm, ⟨13, _⟩ => ⟨S19x19, .f32⟩
  | .hbm, ⟨14, _⟩ => ⟨S_, .f32⟩
  | .hbm, ⟨15, _⟩ => ⟨S19, .f32⟩
  | .hbm, ⟨16, _⟩ => ⟨S19x1, .f32⟩
  | .hbm, ⟨17, _⟩ => ⟨S19x19, .f32⟩
  | .hbm, ⟨18, _⟩ => ⟨S19x19, .f32⟩
  | .hbm, ⟨19, _⟩ => ⟨S16x19x262144, .f32⟩
  | .hbm, ⟨20, _⟩ => ⟨S16x1x128, .f32⟩
  | .hbm, ⟨21, _⟩ => ⟨S16x19x512x512, .f32⟩
  | .hbm, ⟨22, _⟩ => ⟨S16x1x1, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x19x8192, .f32⟩
  | .local _ .vmem, ⟨1, _⟩ => ⟨S1x19x8192, .f32⟩
  | .local _ .vmem, ⟨2, _⟩ => ⟨S1x1x8192, .i32⟩
  | .local _ .vmem, ⟨3, _⟩ => ⟨S1x1x8192, .i32⟩
  | .local _ .vmem, ⟨4, _⟩ => ⟨S19x19, .f32⟩
  | .local _ .vmem, ⟨5, _⟩ => ⟨S1x19x8192, .f32⟩
  | .local _ .vmem, ⟨6, _⟩ => ⟨S1x19x8192, .f32⟩
  | .local _ .vmem, ⟨7, _⟩ => ⟨S1x1x128, .f32⟩
  | .local _ .vmem, ⟨8, _⟩ => ⟨S1x1x128, .f32⟩
  | _, _ => ⟨S16x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S19x19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x19x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x19x512x512_S16x19x262144 : S16x19x512x512.ShapeCasts S16x19x262144
  shapeCasts_S16x512x512_S16x1x262144 : S16x512x512.ShapeCasts S16x1x262144
  reducesTo_S19x19_S19_d1 : S19x19.ReducesTo [1] S19
  h_S_ : 0 < S_.numel
  bcast_S_S19 : S_.BroadcastsInDim S19 (![] : Fin 0 → Fin S19.rank)
  bcast_S19_S19x1_0 : S19.BroadcastsInDim S19x1 (![0] : Fin 1 → Fin S19x1.rank)
  bcast_S19x1_S19x19_0_1 : S19x1.BroadcastsInDim S19x19 (![0, 1] : Fin 2 → Fin S19x19.rank)
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S19x8192 : S1x19x8192.ShapeCasts S19x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  reduces_S19x8192_S8192 : S19x8192.Reduces [0] S8192
  shapeCasts_S8192_S1x8192 : S8192.ShapeCasts S1x8192
  broadcasts_S1x8192_S19x8192 : S1x8192.Broadcasts S19x8192
  iota_S19x8192_d0_w32 : S19x8192.Iotas .tc 32 [0]
  shapeCasts_S1x8192_S1x8192 : S1x8192.ShapeCasts S1x8192
  natLt_1_32 : 1 < 32
  bitsLt_bf16_f32 : FTy.bits .bf16 < FTy.bits .f32
  inb_S19x19_S19x19_0_0 : ∀ a, (![0, 0] : Fin 2 → Nat) a + S19x19.size a ≤ S19x19.size a
  h_S19x19 : 0 < S19x19.numel
  shapeCasts_S19x19_S19x19 : S19x19.ShapeCasts S19x19
  shapeCasts_S1x8192_S1x1x8192 : S1x8192.ShapeCasts S1x1x8192
  reduces_S1x1x8192_S1 : S1x1x8192.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S19x8192_S1x19x8192 : S19x8192.ShapeCasts S1x19x8192
  shapeCasts_S16x19x262144_S16x19x512x512 : S16x19x262144.ShapeCasts S16x19x512x512
  slices_S16x1x128_S16x1x1_0_0_0 : S16x1x128.Slices ![0, 0, 0] S16x1x1
  shapeCasts_S16x1x1_S16 : S16x1x1.ShapeCasts S16
  bcast_S_S16 : S_.BroadcastsInDim S16 (![] : Fin 0 → Fin S16.rank)
  reducesTo_S16_S_d0 : S16.ReducesTo [0] S_
  dot_S19x19_S19x8192_S19x8192_1_0_0_1_n_n_wf : DotDims.WF S19x19 S19x8192 S19x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x8192.size a ≤ S16x19x262144.size a
  hwx0_0 : ∀ i : grid0.Coords, EltTy.bits .f32 = 32 ∨ (Rect.block (s := S16x19x262144) S1x19x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x262144.size a
  hwx0_1 : ∀ i : grid0.Coords, EltTy.bits .i32 = 32 ∨ (Rect.block (s := S16x1x262144) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x19.size a ≤ S19x19.size a
  hwx0_2 : ∀ i : grid0.Coords, EltTy.bits .f32 = 32 ∨ (Rect.block (s := S19x19) S19x19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x8192.size a ≤ S16x19x262144.size a
  hwx0_3 : ∀ i : grid0.Coords, EltTy.bits .f32 = 32 ∨ (Rect.block (s := S16x19x262144) S1x19x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def dot_S19x19_S19x8192_S19x8192_1_0_0_1_n_n : DotDims S19x19 S19x8192 S19x8192 where
  lhsContracting := [1]
  rhsContracting := [0]
  lhsNonContracting := [0]
  rhsNonContracting := [1]
  lhsBatch := []
  rhsBatch := []
  wf := dot_S19x19_S19x8192_S19x8192_1_0_0_1_n_n_wf

abbrev win0_0 : Pipeline.Window sig grid0 :=
  Pipeline.Window.ofSpec (Memref.whole main_v0) S1x19x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S19x19.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S1x19x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x19x512x512 : Shape := ⟨4, ![16, 19, 512, 512]⟩
abbrev S16x512x512 : Shape := ⟨3, ![16, 512, 512]⟩
abbrev S19x19 : Shape := ⟨2, ![19, 19]⟩
abbrev S_ : Shape := ⟨0, ![]⟩
abbrev S16x1x512x512 : Shape := ⟨4, ![16, 1, 512, 512]⟩
abbrev S19 : Shape := ⟨1, ![19]⟩
abbrev S19x1 : Shape := ⟨2, ![19, 1]⟩
abbrev S16x512x512x1 : Shape := ⟨4, ![16, 512, 512, 1]⟩
abbrev S1 : Shape := ⟨1, ![1]⟩
abbrev S1x1x1x1 : Shape := ⟨4, ![1, 1, 1, 1]⟩
abbrev S19x16x512x512 : Shape := ⟨4, ![19, 16, 512, 512]⟩
abbrev S16 : Shape := ⟨1, ![16]⟩

abbrev nBuf : Space → Nat
  | .hbm => 86
  | .vmem => 0
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S19x19, .f32⟩
  | .hbm, ⟨3, _⟩ => ⟨S_, .f32⟩
  | .hbm, ⟨4, _⟩ => ⟨S16x19x512x512, .f32⟩
  | .hbm, ⟨5, _⟩ => ⟨S16x19x512x512, .f32⟩
  | .hbm, ⟨6, _⟩ => ⟨S_, .f32⟩
  | .hbm, ⟨7, _⟩ => ⟨S16x512x512, .f32⟩
  | .hbm, ⟨8, _⟩ => ⟨S_, .f32⟩
  | .hbm, ⟨9, _⟩ => ⟨S16x512x512, .f32⟩
  | .hbm, ⟨10, _⟩ => ⟨S16x512x512, .f32⟩
  | .hbm, ⟨11, _⟩ => ⟨S16x1x512x512, .f32⟩
  | .hbm, ⟨12, _⟩ => ⟨S16x19x512x512, .f32⟩
  | .hbm, ⟨13, _⟩ => ⟨S16x19x512x512, .f32⟩
  | .hbm, ⟨14, _⟩ => ⟨S16x19x512x512, .f32⟩
  | .hbm, ⟨15, _⟩ => ⟨S_, .f32⟩
  | .hbm, ⟨16, _⟩ => ⟨S16x512x512, .f32⟩
  | .hbm, ⟨17, _⟩ => ⟨S16x1x512x512, .f32⟩
  | .hbm, ⟨18, _⟩ => ⟨S16x19x512x512, .f32⟩
  | .hbm, ⟨19, _⟩ => ⟨S16x19x512x512, .f32⟩
  | .hbm, ⟨20, _⟩ => ⟨S_, .f32⟩
  | .hbm, ⟨21, _⟩ => ⟨S19, .f32⟩
  | .hbm, ⟨22, _⟩ => ⟨S_, .f32⟩
  | .hbm, ⟨23, _⟩ => ⟨S19, .f32⟩
  | .hbm, ⟨24, _⟩ => ⟨S19, .f32⟩
  | .hbm, ⟨25, _⟩ => ⟨S19x1, .f32⟩
  | .hbm, ⟨26, _⟩ => ⟨S19x19, .f32⟩
  | .hbm, ⟨27, _⟩ => ⟨S19x19, .f32⟩
  | .hbm, ⟨28, _⟩ => ⟨S19x19, .f32⟩
  | .hbm, ⟨29, _⟩ => ⟨S_, .f32⟩
  | .hbm, ⟨30, _⟩ => ⟨S19, .f32⟩
  | .hbm, ⟨31, _⟩ => ⟨S19x1, .f32⟩
  | .hbm, ⟨32, _⟩ => ⟨S19x19, .f32⟩
  | .hbm, ⟨33, _⟩ => ⟨S19x19, .f32⟩
  | .hbm, ⟨34, _⟩ => ⟨S_, .i32⟩
  | .hbm, ⟨35, _⟩ => ⟨S16x512x512, .i32⟩
  | .hbm, ⟨36, _⟩ => ⟨S16x512x512, .i1⟩
  | .hbm, ⟨37, _⟩ => ⟨S_, .i32⟩
  | .hbm, ⟨38, _⟩ => ⟨S16x512x512, .i32⟩
  | .hbm, ⟨39, _⟩ => ⟨S16x512x512, .i32⟩
  | .hbm, ⟨40, _⟩ => ⟨S16x512x512, .i32⟩
  | .hbm, ⟨41, _⟩ => ⟨S16x512x512x1, .i32⟩
  | .hbm, ⟨42, _⟩ => ⟨S1, .i32⟩
  | .hbm, ⟨43, _⟩ => ⟨S_, .i32⟩
  | .hbm, ⟨44, _⟩ => ⟨S16x512x512x1, .i32⟩
  | .hbm, ⟨45, _⟩ => ⟨S16x512x512x1, .i1⟩
  | .hbm, ⟨46, _⟩ => ⟨S1x1x1x1, .i32⟩
  | .hbm, ⟨47, _⟩ => ⟨S16x512x512x1, .i32⟩
  | .hbm, ⟨48, _⟩ => ⟨S16x512x512x1, .i1⟩
  | .hbm, ⟨49, _⟩ => ⟨S16x512x512x1, .i1⟩
  | .hbm, ⟨50, _⟩ => ⟨S_, .i1⟩
  | .hbm, ⟨51, _⟩ => ⟨S16x512x512, .i1⟩
  | .hbm, ⟨52, _⟩ => ⟨S19x16x512x512, .f32⟩
  | .hbm, ⟨53, _⟩ => ⟨S19x16x512x512, .i1⟩
  | .hbm, ⟨54, _⟩ => ⟨S_, .f32⟩
  | .hbm, ⟨55, _⟩ => ⟨S19x16x512x512, .f32⟩
  | .hbm, ⟨56, _⟩ => ⟨S19x16x512x512, .f32⟩
  | .hbm, ⟨57, _⟩ => ⟨S16x19x512x512, .f32⟩
  | .hbm, ⟨58, _⟩ => ⟨S16x19x512x512, .f32⟩
  | .hbm, ⟨59, _⟩ => ⟨S_, .f32⟩
  | .hbm, ⟨60, _⟩ => ⟨S16x512x512, .f32⟩
  | .hbm, ⟨61, _⟩ => ⟨S16x1x512x512, .f32⟩
  | .hbm, ⟨62, _⟩ => ⟨S16x19x512x512, .f32⟩
  | .hbm, ⟨63, _⟩ => ⟨S16x19x512x512, .f32⟩
  | .hbm, ⟨64, _⟩ => ⟨S_, .f32⟩
  | .hbm, ⟨65, _⟩ => ⟨S16x19x512x512, .f32⟩
  | .hbm, ⟨66, _⟩ => ⟨S16x19x512x512, .f32⟩
  | .hbm, ⟨67, _⟩ => ⟨S16x19x512x512, .f32⟩
  | .hbm, ⟨68, _⟩ => ⟨S_, .f32⟩
  | .hbm, ⟨69, _⟩ => ⟨S16x19x512x512, .f32⟩
  | .hbm, ⟨70, _⟩ => ⟨S16x19x512x512, .f32⟩
  | .hbm, ⟨71, _⟩ => ⟨S16x19x512x512, .f32⟩
  | .hbm, ⟨72, _⟩ => ⟨S16x19x512x512, .f32⟩
  | .hbm, ⟨73, _⟩ => ⟨S16x19x512x512, .f32⟩
  | .hbm, ⟨74, _⟩ => ⟨S_, .f32⟩
  | .hbm, ⟨75, _⟩ => ⟨S16x512x512, .f32⟩
  | .hbm, ⟨76, _⟩ => ⟨S_, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S16x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_8 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_9 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_cst_11 : Ref sig .tc := ⟨.hbm, 78, rfl⟩
abbrev main_v41 : Ref sig .tc := ⟨.hbm, 79, rfl⟩
abbrev main_v42 : Ref sig .tc := ⟨.hbm, 80, rfl⟩
abbrev main_cst_12 : Ref sig .tc := ⟨.hbm, 81, rfl⟩
abbrev main_v43 : Ref sig .tc := ⟨.hbm, 82, rfl⟩
abbrev main_cst_13 : Ref sig .tc := ⟨.hbm, 83, rfl⟩
abbrev main_v44 : Ref sig .tc := ⟨.hbm, 84, rfl⟩
abbrev main_v45 : Ref sig .tc := ⟨.hbm, 85, rfl⟩

abbrev nD : Nat := 1
abbrev τ : Topo := Topo.v7x

variable {F : FTy → Type} [FloatOps F]

class Facts₀ : Prop where
  bcast_S_S16x19x512x512 : S_.BroadcastsInDim S16x19x512x512 (![] : Fin 0 → Fin S16x19x512x512.rank)
  reducesTo_S16x19x512x512_S16x512x512_d1 : S16x19x512x512.ReducesTo [1] S16x512x512
  h_S_ : 0 < S_.numel
  bcast_S_S16x512x512 : S_.BroadcastsInDim S16x512x512 (![] : Fin 0 → Fin S16x512x512.rank)
  bcast_S16x512x512_S16x1x512x512_0_2_3 : S16x512x512.BroadcastsInDim S16x1x512x512 (![0, 2, 3] : Fin 3 → Fin S16x1x512x512.rank)
  bcast_S16x1x512x512_S16x19x512x512_0_1_2_3 : S16x1x512x512.BroadcastsInDim S16x19x512x512 (![0, 1, 2, 3] : Fin 4 → Fin S16x19x512x512.rank)
  reducesTo_S19x19_S19_d1 : S19x19.ReducesTo [1] S19
  bcast_S_S19 : S_.BroadcastsInDim S19 (![] : Fin 0 → Fin S19.rank)
  bcast_S19_S19x1_0 : S19.BroadcastsInDim S19x1 (![0] : Fin 1 → Fin S19x1.rank)
  bcast_S19x1_S19x19_0_1 : S19x1.BroadcastsInDim S19x19 (![0, 1] : Fin 2 → Fin S19x19.rank)
  bcast_S16x512x512_S16x512x512x1_0_1_2 : S16x512x512.BroadcastsInDim S16x512x512x1 (![0, 1, 2] : Fin 3 → Fin S16x512x512x1.rank)
  bcast_S_S16x512x512x1 : S_.BroadcastsInDim S16x512x512x1 (![] : Fin 0 → Fin S16x512x512x1.rank)
  bcast_S1_S1x1x1x1_3 : S1.BroadcastsInDim S1x1x1x1 (![3] : Fin 1 → Fin S1x1x1x1.rank)
  bcast_S1x1x1x1_S16x512x512x1_0_1_2_3 : S1x1x1x1.BroadcastsInDim S16x512x512x1 (![0, 1, 2, 3] : Fin 4 → Fin S16x512x512x1.rank)
  reducesTo_S16x512x512x1_S16x512x512_d3 : S16x512x512x1.ReducesTo [3] S16x512x512
  bcast_S16x512x512_S19x16x512x512_1_2_3 : S16x512x512.BroadcastsInDim S19x16x512x512 (![1, 2, 3] : Fin 3 → Fin S19x16x512x512.rank)
  bcast_S_S19x16x512x512 : S_.BroadcastsInDim S19x16x512x512 (![] : Fin 0 → Fin S19x16x512x512.rank)
  transposes_S19x16x512x512_S16x19x512x512_1_0_2_3 : S19x16x512x512.Transposes [1, 0, 2, 3] S16x19x512x512
  reducesTo_S16x512x512_S16_d1_2 : S16x512x512.ReducesTo [1, 2] S16
  bcast_S_S16 : S_.BroadcastsInDim S16 (![] : Fin 0 → Fin S16.rank)
  reducesTo_S16_S_d0 : S16.ReducesTo [0] S_
  gather_S19x19_S16x512x512x1_S19x16x512x512_0_1_n_n_1_3_191_wf : GatherDims.WF S19x19 S16x512x512x1 S19x16x512x512 [0] [1] [] [1] [] 3 ![19, 1]

variable [Facts₀]

def gather_S19x19_S16x512x512x1_S19x16x512x512_0_1_n_n_1_3_191 : GatherDims S19x19 S16x512x512x1 S19x16x512x512 where
  offsetDims := [0]
  collapsedSliceDims := [1]
  operandBatchingDims := []
  startIndicesBatchingDims := []
  startIndexMap := [1]
  indexVectorDim := 3
  sliceSizes := ![19, 1]
  wf := gather_S19x19_S16x512x512x1_S19x16x512x512_0_1_n_n_1_3_191_wf

class Facts : Prop extends Facts₀ where

variable [Facts]
-- ==== Proof.Spec.lean ====
/-
  The function both programs compute, stated once over the argument arrays.

  Per pixel (b, h, w) the 19 logits form a column v. Its softmax is
  smax v c = exp (v c - M) / Σ_k exp (v k - M) with M the column's maximum.
  The row-softmaxed confusion matrix (ncmOf cm) is gathered at the pixel's label τ:
  p c = ncm (c, τ). The pixel's loss is
    Σ_c (p c · smax v c / Σ_k p k · smax v k) · (log (p c + ε) + log (smax v c + ε)),
  an image's loss the sum of its pixels' losses, and the batch loss
  −(Σ_b loss_b / 262144) / 16. The first result is the softmax itself.

  Two host chains occur verbatim in both programs and are kept folded, generic in the float
  instance: the row softmax of the confusion matrix, and the mean-and-negate after the
  per-image sums.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S16x19x512x512 : Shape := ⟨4, ![16, 19, 512, 512]⟩
abbrev S16x512x512 : Shape := ⟨3, ![16, 512, 512]⟩
abbrev S19x19 : Shape := ⟨2, ![19, 19]⟩
abbrev S19x1 : Shape := ⟨2, ![19, 1]⟩
abbrev S19 : Shape := ⟨1, ![19]⟩
abbrev S16 : Shape := ⟨1, ![16]⟩
abbrev S_ : Shape := ⟨0, ![]⟩

theorem hS_ : 0 < S_.numel := by decide
theorem hred_19x19_19 : S19x19.ReducesTo [1] S19 := by decide
theorem hb_S_S19 : S_.BroadcastsInDim S19 (![] : Fin 0 → Fin S19.rank) := by decide
theorem hb_19_19x1 : S19.BroadcastsInDim S19x1 (![0] : Fin 1 → Fin S19x1.rank) := by decide
theorem hb_19x1_19x19 : S19x1.BroadcastsInDim S19x19 (![0, 1] : Fin 2 → Fin S19x19.rank) := by decide
theorem hb_S_S16 : S_.BroadcastsInDim S16 (![] : Fin 0 → Fin S16.rank) := by decide
theorem hred_16_S : S16.ReducesTo [0] S_ := by decide

section Generic

variable {F : FTy → Type} [FloatOps F]

/-- Each row's maximum of the confusion matrix, as the host computes it (a max-reduce from −∞, then
    a maximum with −∞ again). -/
def rowMaxOf (cm : FVec F S19x19 .f32) : FVec F S19 .f32 :=
  maximumf (broadcastInDim S19 ![] hb_S_S19 (constant S_ .f32 0xFF800000#32))
    (Host.reduce FloatOps.maximumf cm (constant S_ .f32 0xFF800000#32) hred_19x19_19 hS_)

/-- exp (cm − row maximum). -/
def rowExpOf (cm : FVec F S19x19 .f32) : FVec F S19x19 .f32 :=
  Host.exp (subf cm (broadcastInDim S19x19 ![0, 1] hb_19x1_19x19 (broadcastInDim S19x1 ![0] hb_19_19x1 (rowMaxOf cm))))

/-- The confusion matrix softmaxed along its rows: the host chain both programs run on it. -/
def ncmOf (cm : FVec F S19x19 .f32) : FVec F S19x19 .f32 :=
  Host.divf (rowExpOf cm)
    (broadcastInDim S19x19 ![0, 1] hb_19x1_19x19 (broadcastInDim S19x1 ![0] hb_19_19x1
      (Host.reduceAdd (rowExpOf cm) (constant S_ .f32 0x00000000#32) hred_19x19_19 hS_)))

/-- From the sixteen per-image sums to the batch loss: each divided by 262144, their sum divided by 16,
    negated — the host chain both programs end with. -/
def lossTail (L : FVec F S16 .f32) : FVec F S_ .f32 :=
  Host.negf (Host.divf
    (Host.reduceAdd (Host.divf L (broadcastInDim S16 ![] hb_S_S16 (constant S_ .f32 0x48800000#32)))
      (constant S_ .f32 0x00000000#32) hred_16_S hS_)
    (constant S_ .f32 0x41800000#32))

end Generic

/-! ## Per pixel, on the extended reals -/

/-- The word both programs start a maximum from (−∞'s pattern; never evaluated: it is the same word on both sides). -/
def negInf : EReal := Ideal.ofBits .f32 0xFF800000#32
/-- The ε both programs add under each logarithm (the same word on both sides). -/
def eps : EReal := Ideal.ofBits .f32 0x322BCC77#32

/-- A column's maximum, folded from `negInf`. -/
def colMax (v : Fin 19 → EReal) : EReal := (Finset.univ : Finset (Fin 19)).fold max negInf v

/-- The softmax of a column at class `c`. -/
def smax (v : Fin 19 → EReal) (c : Fin 19) : EReal :=
  Ideal.div (Ideal.exp (v c - colMax v)) (∑ k : Fin 19, Ideal.exp (v k - colMax v))

/-- A pixel's loss from its gathered confusion column `p` and its logit column `v`. -/
def pixLoss (p v : Fin 19 → EReal) : EReal :=
  ∑ c : Fin 19, Ideal.div (p c * smax v c) (∑ k : Fin 19, p k * smax v k)
    * (Ideal.log (p c + eps) + Ideal.log (smax v c + eps))

/-- A label word as a class (total: reduced mod 19; on labels in range it is the label). -/
def lbl (τ : BitVec 32) : Fin 19 := ⟨τ.toNat % 19, Nat.mod_lt _ (by decide)⟩

theorem lbl_val_of_lt {τ : BitVec 32} (h : τ.toNat < 19) : (lbl τ).val = τ.toNat := Nat.mod_eq_of_lt h

/-- Column `τ` of a 19 × 19 matrix. -/
def gcol (ncm : FVec Ideal S19x19 .f32) (τ : BitVec 32) : Fin 19 → EReal := fun c => ncm (ix2 c (lbl τ))

/-- The logit column of image `b` at flattened pixel `s` (row s / 512, column s % 512). -/
def lcol (x : FVec Ideal S16x19x512x512 .f32) (b : Fin 16) (s : Fin 262144) : Fin 19 → EReal :=
  fun c => x (ix4 b c ⟨s.val / 512, by omega⟩ ⟨s.val % 512, Nat.mod_lt _ (by decide)⟩)

/-- The label of image `b` at flattened pixel `s`. -/
def tcol (t : IVec S16x512x512 32) (b : Fin 16) (s : Fin 262144) : BitVec 32 :=
  t (ix3 b ⟨s.val / 512, by omega⟩ ⟨s.val % 512, Nat.mod_lt _ (by decide)⟩)

/-- The flattened pixel of (row h, column w). -/
def pix (h w : Fin 512) : Fin 262144 := ⟨h.val * 512 + w.val, by omega⟩

theorem pix_div (h w : Fin 512) : (pix h w).val / 512 = h.val := by
  show (h.val * 512 + w.val) / 512 = h.val; omega
theorem pix_mod (h w : Fin 512) : (pix h w).val % 512 = w.val := by
  show (h.val * 512 + w.val) % 512 = w.val; omega

/-- FIRST RESULT: the softmax over the class axis, pixel by pixel. -/
def predG (x : FVec Ideal S16x19x512x512 .f32) : FVec Ideal S16x19x512x512 .f32 :=
  fun i => smax (lcol x (i 0) (pix (i 2) (i 3))) (i 1)

/-- The loss of image `b`: the sum of its pixels' losses. -/
def imgLoss (x : FVec Ideal S16x19x512x512 .f32) (t : IVec S16x512x512 32) (cm : FVec Ideal S19x19 .f32)
    (b : Fin 16) : EReal :=
  ∑ s : Fin 262144, pixLoss (gcol (ncmOf cm) (tcol t b s)) (lcol x b s)

/-- The sixteen per-image losses as a vector. -/
def lossG (x : FVec Ideal S16x19x512x512 .f32) (t : IVec S16x512x512 32) (cm : FVec Ideal S19x19 .f32) :
    FVec Ideal S16 .f32 := fun i => imgLoss x t cm (i 0)

/-- SECOND RESULT: the batch loss. -/
def batchG (x : FVec Ideal S16x19x512x512 .f32) (t : IVec S16x512x512 32) (cm : FVec Ideal S19x19 .f32) :
    FVec Ideal S_ .f32 := lossTail (lossG x t cm)

end Cert.Spec

end
-- ==== Proof.PreRange.lean ====
/-
  From the precondition to the labels' range: the added conjunct says every label is a class,
  0 ≤ label < 19 as signed words, hence its unsigned value is below 19.
-/
import proofs.«422314_j88802743812528_1_alg».proof.Proof.Gen.Pre_finite_inputs
import Idealize.ShloMosaic.Lib.ReduceAll
import Idealize.ShloMosaic.Lib.StableHlo.Predicate

noncomputable section

namespace Cert.Proof.PreRange

open Idealize.ShloMosaic Cert.Pre_finite_inputs

/-- The scalar shape has one index. -/
private instance : Subsingleton S_.Idx := ⟨fun a b => funext fun d => d.elim0⟩

/-- A 32-bit word that lies in [0, 19) read as a signed number is below 19 read as an unsigned one:
    a non-negative signed word has its top bit clear, so both readings agree. -/
private theorem toNat_lt_of_signed (w : BitVec 32) (h0 : (0#32 : BitVec 32).toInt ≤ w.toInt)
    (h1 : w.toInt < (19#32 : BitVec 32).toInt) : w.toNat < 19 := by
  have e0 : (0#32 : BitVec 32).toInt = 0 := by decide
  have e19 : (19#32 : BitVec 32).toInt = 19 := by decide
  rw [e0] at h0
  rw [e19] at h1
  have hw := w.isLt
  rw [BitVec.toInt_eq_toNat_cond] at h0 h1
  split at h0 <;> omega

/-- Under the precondition every label is a class. -/
theorem label_range {F : FTy → Type} [FloatOps F] (x : FVec F S16x19x512x512 .f32) (t : IVec S16x512x512 32) (cm : FVec F S19x19 .f32)
    (h : Cert.Pre_finite_inputs.fn (F := F) x t cm = fun _ => 1#1) :
    ∀ i : S16x512x512.Idx, BitVec.toNat (t i) < 19 := by
  intro i
  have e := congrFun h (fun a => a.elim0)
  dsimp only [Cert.Pre_finite_inputs.fn] at e
  obtain ⟨-, e14⟩ := IntOp.andi_eq_one.1 e
  have e13 := Host.reduce_andi_all _ _ _ _ _ e14 i
  obtain ⟨hge, hlt⟩ := IntOp.andi_eq_one.1 e13
  exact toNat_lt_of_signed _ (IntOp.cmpi_sge.1 hge) (IntOp.cmpi_slt.1 hlt)

end Cert.Proof.PreRange

end
-- ==== Proof.RefTerm.lean ====
/-
  The reference's two results as terms of its argument arrays, one definition per stretch of its
  host operations (generic in the float instance): the class-axis softmax of the logits; the
  take of the row-softmaxed confusion matrix at the labels (negative labels wrapped by +19, labels
  outside [0, 18] filled with a NaN pattern), transposed to the logits' layout; and the per-image
  sums of the per-pixel losses.
-/
import proofs.«422314_j88802743812528_1_alg».proof.Proof.Gen.ReferenceIdeal
import proofs.«422314_j88802743812528_1_alg».proof.Proof.Spec

noncomputable section

namespace Cert.ReferenceIdeal.Term

open Cert.ReferenceIdeal Cert.ReferenceIdeal.Gen Idealize.ShloMosaic

variable {F : FTy → Type} [FloatOps F]

/-- The logits divided by the temperature 1.0. -/
def scaled (x : FVec F S16x19x512x512 .f32) : FVec F S16x19x512x512 .f32 :=
  Host.divf x (broadcastInDim S16x19x512x512 ![] bcast_S_S16x19x512x512 (constant S_ .f32 0x3F800000#32))

/-- A per-pixel array laid along the class axis. -/
def alongC (y : FVec F S16x512x512 .f32) : FVec F S16x19x512x512 .f32 :=
  broadcastInDim S16x19x512x512 ![0, 1, 2, 3] bcast_S16x1x512x512_S16x19x512x512_0_1_2_3
    (broadcastInDim S16x1x512x512 ![0, 2, 3] bcast_S16x512x512_S16x1x512x512_0_2_3 y)

/-- The sum over the class axis, from 0. -/
def sumC (y : FVec F S16x19x512x512 .f32) : FVec F S16x512x512 .f32 :=
  Host.reduceAdd y (constant S_ .f32 0x00000000#32) reducesTo_S16x19x512x512_S16x512x512_d1 h_S_

/-- Each pixel's maximum over the classes (a max-reduce from −∞, then a maximum with −∞). -/
def pixMax (x : FVec F S16x19x512x512 .f32) : FVec F S16x512x512 .f32 :=
  maximumf (broadcastInDim S16x512x512 ![] bcast_S_S16x512x512 (constant S_ .f32 0xFF800000#32))
    (Host.reduce FloatOps.maximumf (scaled x) (constant S_ .f32 0xFF800000#32) reducesTo_S16x19x512x512_S16x512x512_d1 h_S_)

/-- exp (logit − pixel maximum). -/
def expd (x : FVec F S16x19x512x512 .f32) : FVec F S16x19x512x512 .f32 :=
  Host.exp (subf (scaled x) (alongC (pixMax x)))

/-- FIRST RESULT (main_v12): the softmax over the class axis. -/
def refPred (x : FVec F S16x19x512x512 .f32) : FVec F S16x19x512x512 .f32 :=
  Host.divf (expd x) (alongC (sumC (expd x)))

/-- The labels with negative ones wrapped by +19 (jnp.take's index normalisation). -/
def wrapped (t : IVec S16x512x512 32) : IVec S16x512x512 32 :=
  select (cmpi .slt t (broadcastInDim S16x512x512 ![] bcast_S_S16x512x512 (constantI S_ 32 0#32)))
    (addi t (broadcastInDim S16x512x512 ![] bcast_S_S16x512x512 (constantI S_ 32 19#32))) t

/-- The wrapped labels as a column of start indices. -/
def startIdx (t : IVec S16x512x512 32) : IVec S16x512x512x1 32 :=
  broadcastInDim S16x512x512x1 ![0, 1, 2] bcast_S16x512x512_S16x512x512x1_0_1_2 (wrapped t)

/-- Which wrapped labels lie in [0, 18]. -/
def inRange (t : IVec S16x512x512 32) : IVec S16x512x512 1 :=
  Host.reduce IntOp.andi
    (andi (cmpi .sge (startIdx t) (broadcastInDim S16x512x512x1 ![] bcast_S_S16x512x512x1 (constantI S_ 32 0#32)))
      (cmpi .sle (startIdx t)
        (broadcastInDim S16x512x512x1 ![0, 1, 2, 3] bcast_S1x1x1x1_S16x512x512x1_0_1_2_3
          (broadcastInDim S1x1x1x1 ![3] bcast_S1_S1x1x1x1_3 (constantI S1 32 18#32)))))
    (constantI S_ 1 1#1) reducesTo_S16x512x512x1_S16x512x512_d3 h_S_

/-- jnp.take(ncm, targets, axis=1): the gathered columns where the label is in range, a NaN pattern elsewhere. -/
def taken (ncm : FVec F S19x19 .f32) (t : IVec S16x512x512 32) : FVec F S19x16x512x512 .f32 :=
  select (broadcastInDim S19x16x512x512 ![1, 2, 3] bcast_S16x512x512_S19x16x512x512_1_2_3 (inRange t))
    (Host.gather gather_S19x19_S16x512x512x1_S19x16x512x512_0_1_n_n_1_3_191 ncm (startIdx t))
    (broadcastInDim S19x16x512x512 ![] bcast_S_S19x16x512x512 (constant S_ .f32 0x7FC00000#32))

/-- The gathered confusion entries in the logits' layout (main_v25). -/
def preP (cm : FVec F S19x19 .f32) (t : IVec S16x512x512 32) : FVec F S16x19x512x512 .f32 :=
  transpose S16x19x512x512 [1, 0, 2, 3] (taken (Cert.Spec.ncmOf cm) t) transposes_S19x16x512x512_S16x19x512x512_1_0_2_3

/-- ε laid over the logits' shape. -/
def epsA : FVec F S16x19x512x512 .f32 :=
  broadcastInDim S16x19x512x512 ![] bcast_S_S16x19x512x512 (constant S_ .f32 0x322BCC77#32)

/-- pre_p · pred (main_v26). -/
def numel (x : FVec F S16x19x512x512 .f32) (t : IVec S16x512x512 32) (cm : FVec F S19x19 .f32) : FVec F S16x19x512x512 .f32 :=
  mulf (preP cm t) (refPred x)

/-- q · (log (pre_p + ε) + log (pred + ε)) (main_v38). -/
def terms (x : FVec F S16x19x512x512 .f32) (t : IVec S16x512x512 32) (cm : FVec F S19x19 .f32) : FVec F S16x19x512x512 .f32 :=
  mulf (Host.divf (numel x t cm) (alongC (sumC (numel x t cm))))
    (addf (Host.log (addf (preP cm t) epsA)) (Host.log (addf (refPred x) epsA)))

/-- The per-image sums of the per-pixel losses (main_v40). -/
def refLossSum (x : FVec F S16x19x512x512 .f32) (t : IVec S16x512x512 32) (cm : FVec F S19x19 .f32) : FVec F S16 .f32 :=
  Host.reduceAdd (sumC (terms x t cm)) (constant S_ .f32 0x00000000#32) reducesTo_S16x512x512_S16_d1_2 h_S_

end Cert.ReferenceIdeal.Term

end
-- ==== Proof.RefRun.lean ====
/-
  The reference's run: its @main is a straight line of host operations (the outlined take and
  where inlined at their call sites), so every weakly fair execution terminates with each result
  buffer at the operations' composed term of the arguments, the arguments unchanged.
-/
import proofs.«422314_j88802743812528_1_alg».proof.Proof.Gen.ReferenceIdeal
import proofs.«422314_j88802743812528_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The contents of a float buffer of shape `s`. -/
private abbrev FC (F : FTy → Type) (s : Shape) : Type := (⟨s, .f32⟩ : BufTy).Contents (Elt F)

/-- @main's eighty-three operations in order, the calls unfolded: the class-axis softmax of the logits
    (seventeen), the row softmax of the confusion matrix (fourteen), the take's twenty-three over its own
    buffers (the where's select among them, in its call's place), the per-pixel loss terms and their sums
    (twenty-one), and the mean and negation (eight). -/
private abbrev ops : List (HloOp τ sig (Elt F)) :=
  [ nullary main_cst (constant S_ .f32 0x3F800000#32),
    unary main_cst main_v0 (broadcastInDim S16x19x512x512 ![] bcast_S_S16x19x512x512 : FC F S_ → FC F S16x19x512x512),
    binary main_arg0 main_v0 main_v1 (Host.divf : FC F S16x19x512x512 → FC F S16x19x512x512 → FC F S16x19x512x512),
    nullary main_cst_0 (constant S_ .f32 0xFF800000#32),
    binary main_v1 main_cst_0 main_v2 ((fun x v => Host.reduce FloatOps.maximumf x v reducesTo_S16x19x512x512_S16x512x512_d1 h_S_) : FC F S16x19x512x512 → FC F S_ → FC F S16x512x512),
    nullary main_cst_1 (constant S_ .f32 0xFF800000#32),
    unary main_cst_1 main_v3 (broadcastInDim S16x512x512 ![] bcast_S_S16x512x512 : FC F S_ → FC F S16x512x512),
    binary main_v3 main_v2 main_v4 (maximumf : FC F S16x512x512 → FC F S16x512x512 → FC F S16x512x512),
    unary main_v4 main_v5 (broadcastInDim S16x1x512x512 ![0, 2, 3] bcast_S16x512x512_S16x1x512x512_0_2_3 : FC F S16x512x512 → FC F S16x1x512x512),
    unary main_v5 main_v6 (broadcastInDim S16x19x512x512 ![0, 1, 2, 3] bcast_S16x1x512x512_S16x19x512x512_0_1_2_3 : FC F S16x1x512x512 → FC F S16x19x512x512),
    binary main_v1 main_v6 main_v7 (subf : FC F S16x19x512x512 → FC F S16x19x512x512 → FC F S16x19x512x512),
    unary main_v7 main_v8 (Host.exp : FC F S16x19x512x512 → FC F S16x19x512x512),
    nullary main_cst_2 (constant S_ .f32 0x00000000#32),
    binary main_v8 main_cst_2 main_v9 ((fun x v => Host.reduceAdd x v reducesTo_S16x19x512x512_S16x512x512_d1 h_S_) : FC F S16x19x512x512 → FC F S_ → FC F S16x512x512),
    unary main_v9 main_v10 (broadcastInDim S16x1x512x512 ![0, 2, 3] bcast_S16x512x512_S16x1x512x512_0_2_3 : FC F S16x512x512 → FC F S16x1x512x512),
    unary main_v10 main_v11 (broadcastInDim S16x19x512x512 ![0, 1, 2, 3] bcast_S16x1x512x512_S16x19x512x512_0_1_2_3 : FC F S16x1x512x512 → FC F S16x19x512x512),
    binary main_v8 main_v11 main_v12 (Host.divf : FC F S16x19x512x512 → FC F S16x19x512x512 → FC F S16x19x512x512),
    nullary main_cst_3 (constant S_ .f32 0xFF800000#32),
    binary main_arg2 main_cst_3 main_v13 ((fun x v => Host.reduce FloatOps.maximumf x v reducesTo_S19x19_S19_d1 h_S_) : FC F S19x19 → FC F S_ → FC F S19),
    nullary main_cst_4 (constant S_ .f32 0xFF800000#32),
    unary main_cst_4 main_v14 (broadcastInDim S19 ![] bcast_S_S19 : FC F S_ → FC F S19),
    binary main_v14 main_v13 main_v15 (maximumf : FC F S19 → FC F S19 → FC F S19),
    unary main_v15 main_v16 (broadcastInDim S19x1 ![0] bcast_S19_S19x1_0 : FC F S19 → FC F S19x1),
    unary main_v16 main_v17 (broadcastInDim S19x19 ![0, 1] bcast_S19x1_S19x19_0_1 : FC F S19x1 → FC F S19x19),
    binary main_arg2 main_v17 main_v18 (subf : FC F S19x19 → FC F S19x19 → FC F S19x19),
    unary main_v18 main_v19 (Host.exp : FC F S19x19 → FC F S19x19),
    nullary main_cst_5 (constant S_ .f32 0x00000000#32),
    binary main_v19 main_cst_5 main_v20 ((fun x v => Host.reduceAdd x v reducesTo_S19x19_S19_d1 h_S_) : FC F S19x19 → FC F S_ → FC F S19),
    unary main_v20 main_v21 (broadcastInDim S19x1 ![0] bcast_S19_S19x1_0 : FC F S19 → FC F S19x1),
    unary main_v21 main_v22 (broadcastInDim S19x19 ![0, 1] bcast_S19x1_S19x19_0_1 : FC F S19x1 → FC F S19x19),
    binary main_v19 main_v22 main_v23 (Host.divf : FC F S19x19 → FC F S19x19 → FC F S19x19),
    TRef.nullary main_call0.c (constantI S_ 32 0#32),
    TRef.unary main_call0.c main_call0.v0 (broadcastInDim S16x512x512 ![] bcast_S_S16x512x512),
    TRef.binary (TRef.of (T := ⟨S16x512x512, .i32⟩) main_arg1) main_call0.v0 main_call0.v1 (cmpi .slt),
    TRef.nullary main_call0.c_0 (constantI S_ 32 19#32),
    TRef.unary main_call0.c_0 main_call0.v2 (broadcastInDim S16x512x512 ![] bcast_S_S16x512x512),
    TRef.binary (TRef.of (T := ⟨S16x512x512, .i32⟩) main_arg1) main_call0.v2 main_call0.v3 addi,
    TRef.ternary main_call0.v1 main_call0.v3 (TRef.of (T := ⟨S16x512x512, .i32⟩) main_arg1) main_call0.call0.v0 select,
    TRef.unary main_call0.call0.v0 main_call0.v5 (broadcastInDim S16x512x512x1 ![0, 1, 2] bcast_S16x512x512_S16x512x512x1_0_1_2),
    TRef.nullary main_call0.c_1 (constantI S1 32 18#32),
    TRef.nullary main_call0.c_2 (constantI S_ 32 0#32),
    TRef.unary main_call0.c_2 main_call0.v6 (broadcastInDim S16x512x512x1 ![] bcast_S_S16x512x512x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S16x512x512x1 ![0, 1, 2, 3] bcast_S1x1x1x1_S16x512x512x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x512x512x1_S16x512x512_d3 h_S_),
    TRef.binary (TRef.of (T := ⟨S19x19, .f32⟩) main_v23) main_call0.v5 main_call0.v13 (fun x i => Host.gather gather_S19x19_S16x512x512x1_S19x16x512x512_0_1_n_n_1_3_191 x i),
    TRef.unary main_call0.v12 main_call0.v14 (broadcastInDim S19x16x512x512 ![1, 2, 3] bcast_S16x512x512_S19x16x512x512_1_2_3),
    TRef.nullary main_call0.cst (constant S_ .f32 0x7FC00000#32),
    TRef.unary main_call0.cst main_call0.v15 (broadcastInDim S19x16x512x512 ![] bcast_S_S19x16x512x512),
    TRef.ternary main_call0.v14 main_call0.v13 main_call0.v15 main_call0.v16 select,
    unary main_v24 main_v25 ((transpose S16x19x512x512 [1, 0, 2, 3] · transposes_S19x16x512x512_S16x19x512x512_1_0_2_3) : FC F S19x16x512x512 → FC F S16x19x512x512),
    binary main_v25 main_v12 main_v26 (mulf : FC F S16x19x512x512 → FC F S16x19x512x512 → FC F S16x19x512x512),
    nullary main_cst_6 (constant S_ .f32 0x00000000#32),
    binary main_v26 main_cst_6 main_v27 ((fun x v => Host.reduceAdd x v reducesTo_S16x19x512x512_S16x512x512_d1 h_S_) : FC F S16x19x512x512 → FC F S_ → FC F S16x512x512),
    unary main_v27 main_v28 (broadcastInDim S16x1x512x512 ![0, 2, 3] bcast_S16x512x512_S16x1x512x512_0_2_3 : FC F S16x512x512 → FC F S16x1x512x512),
    unary main_v28 main_v29 (broadcastInDim S16x19x512x512 ![0, 1, 2, 3] bcast_S16x1x512x512_S16x19x512x512_0_1_2_3 : FC F S16x1x512x512 → FC F S16x19x512x512),
    binary main_v26 main_v29 main_v30 (Host.divf : FC F S16x19x512x512 → FC F S16x19x512x512 → FC F S16x19x512x512),
    nullary main_cst_7 (constant S_ .f32 0x322BCC77#32),
    unary main_cst_7 main_v31 (broadcastInDim S16x19x512x512 ![] bcast_S_S16x19x512x512 : FC F S_ → FC F S16x19x512x512),
    binary main_v25 main_v31 main_v32 (addf : FC F S16x19x512x512 → FC F S16x19x512x512 → FC F S16x19x512x512),
    unary main_v32 main_v33 (Host.log : FC F S16x19x512x512 → FC F S16x19x512x512),
    nullary main_cst_8 (constant S_ .f32 0x322BCC77#32),
    unary main_cst_8 main_v34 (broadcastInDim S16x19x512x512 ![] bcast_S_S16x19x512x512 : FC F S_ → FC F S16x19x512x512),
    binary main_v12 main_v34 main_v35 (addf : FC F S16x19x512x512 → FC F S16x19x512x512 → FC F S16x19x512x512),
    unary main_v35 main_v36 (Host.log : FC F S16x19x512x512 → FC F S16x19x512x512),
    binary main_v33 main_v36 main_v37 (addf : FC F S16x19x512x512 → FC F S16x19x512x512 → FC F S16x19x512x512),
    binary main_v30 main_v37 main_v38 (mulf : FC F S16x19x512x512 → FC F S16x19x512x512 → FC F S16x19x512x512),
    nullary main_cst_9 (constant S_ .f32 0x00000000#32),
    binary main_v38 main_cst_9 main_v39 ((fun x v => Host.reduceAdd x v reducesTo_S16x19x512x512_S16x512x512_d1 h_S_) : FC F S16x19x512x512 → FC F S_ → FC F S16x512x512),
    nullary main_cst_10 (constant S_ .f32 0x00000000#32),
    binary main_v39 main_cst_10 main_v40 ((fun x v => Host.reduceAdd x v reducesTo_S16x512x512_S16_d1_2 h_S_) : FC F S16x512x512 → FC F S_ → FC F S16),
    nullary main_cst_11 (constant S_ .f32 0x48800000#32),
    unary main_cst_11 main_v41 (broadcastInDim S16 ![] bcast_S_S16 : FC F S_ → FC F S16),
    binary main_v40 main_v41 main_v42 (Host.divf : FC F S16 → FC F S16 → FC F S16),
    nullary main_cst_12 (constant S_ .f32 0x00000000#32),
    binary main_v42 main_cst_12 main_v43 ((fun x v => Host.reduceAdd x v reducesTo_S16_S_d0 h_S_) : FC F S16 → FC F S_ → FC F S_),
    nullary main_cst_13 (constant S_ .f32 0x41800000#32),
    binary main_v43 main_cst_13 main_v44 (Host.divf : FC F S_ → FC F S_ → FC F S_),
    unary main_v44 main_v45 (Host.negf : FC F S_ → FC F S_) ]

/-- A value moved to a buffer's own type and back is the value. -/
private theorem ofBuf_toBuf {Val : EltTy → Type} {T : BufTy} (x : TRef sig T) (v : T.Contents Val) :
    x.ofBuf (x.toBuf v) = v := by
  obtain ⟨r, rfl, _, _⟩ := x; rfl

set_option maxRecDepth 8192 in
set_option maxHeartbeats 4000000 in
/-- @main is that straight line: the two windows, the take's body and the where's body unfolded at their
    calls, the sequencing reassociated. -/
private theorem main_eq (c : Dev nD) : main (F := F) c = seq ops := by
  simp only [main, main_part0, main_part1, fn_take.body, fn_where.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
/-- Every operation touches TensorCore buffers only. -/
private theorem ops_sub : (ops : List (HloOp τ sig (Elt F))).Forall fun op => op.bufs ⊆ tcRefs τ sig :=
  ⟨nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., nullary_bufs_sub .., binary_bufs_sub .., unary_bufs_sub .., unary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., nullary_bufs_sub .., binary_bufs_sub ..,
    nullary_bufs_sub .., unary_bufs_sub .., binary_bufs_sub .., nullary_bufs_sub .., binary_bufs_sub .., nullary_bufs_sub ..,
    binary_bufs_sub .., unary_bufs_sub ..⟩

/-! The results over any contents `V` of the buffers at the start: each operation's result read at its own
    buffer, every other buffer passed over; what is left is the composed term, equal to the named one by
    unfolding the definitions. The reductions and the gather stay closed meanwhile: the two sides apply them to
    the same operands, and their bodies (folds over every element) are never needed. -/

attribute [local irreducible] Host.reduce Host.reduceAdd Host.gather in
set_option maxRecDepth 8192 in
set_option maxHeartbeats 4000000 in
/-- The first result: the class-axis softmax of the logits. -/
private theorem pred_eq (V : Valuation τ sig (Elt F)) :
    after ops V (main_v12 : DevRef τ sig) = Term.refPred (V (main_arg0 : DevRef τ sig)) := by
  after_results_simp
  rfl

attribute [local irreducible] Host.reduce Host.reduceAdd Host.gather in
set_option maxRecDepth 8192 in
set_option maxHeartbeats 4000000 in
/-- The second result: the mean and negation of the per-image sums. -/
private theorem loss_eq (V : Valuation τ sig (Elt F)) :
    after ops V (main_v45 : DevRef τ sig)
      = Cert.Spec.lossTail (Term.refLossSum (V (main_arg0 : DevRef τ sig)) (V (main_arg1 : DevRef τ sig)) (V (main_arg2 : DevRef τ sig))) := by
  after_results_simp
  simp only [ofBuf_toBuf]
  rfl

set_option maxRecDepth 8192 in
set_option maxHeartbeats 4000000 in
/-- No operation writes the logits. -/
private theorem arg0_eq (V : Valuation τ sig (Elt F)) :
    after ops V (main_arg0 : DevRef τ sig) = V (main_arg0 : DevRef τ sig) := by
  after_results_simp

set_option maxRecDepth 8192 in
set_option maxHeartbeats 4000000 in
/-- No operation writes the labels. -/
private theorem arg1_eq (V : Valuation τ sig (Elt F)) :
    after ops V (main_arg1 : DevRef τ sig) = V (main_arg1 : DevRef τ sig) := by
  after_results_simp

set_option maxRecDepth 8192 in
set_option maxHeartbeats 4000000 in
/-- No operation writes the confusion matrix. -/
private theorem arg2_eq (V : Valuation τ sig (Elt F)) :
    after ops V (main_arg2 : DevRef τ sig) = V (main_arg2 : DevRef τ sig) := by
  after_results_simp

set_option maxRecDepth 8192 in
set_option maxHeartbeats 4000000 in
/-- From any memory with zero counters every weakly fair execution of the reference terminates with its two
    results at the composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = Term.refPred (m ((c.tc : Thread nD τ).loc main_arg0))
      ∧ r.2.mem ((c.tc : Thread nD τ).loc main_v45)
          = Cert.Spec.lossTail (Term.refLossSum (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (pred_eq (launchContents m c)),
      (h c main_v45).trans (loss_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.Run

end
-- ==== Proof.RefValue.lean ====
/-
  The reference's two terms, on the extended reals, are the specification: its softmax is the
  per-pixel softmax (dividing by the temperature 1 changes nothing; the second maximum with −∞
  changes nothing; the host's sum from 0 is the sum), and, when every label is a class, its take
  reads the label's column (no wrap, in range, the gather at the label), so each image's sum over
  rows and columns of the per-pixel loss is the sum over flattened pixels.
-/
import proofs.«422314_j88802743812528_1_alg».proof.Proof.RefTerm
import proofs.«422314_j88802743812528_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Idealize.ShloMosaic Idealize.ShloMosaic.ValueIdx

section HostAtIndex
variable {s : Shape} {φ : FTy}
/-- The host's quotient, exponential and logarithm read at an index are the extended reals' operations. -/
private theorem hdivf_apply (a b : FVec Ideal s φ) (i : s.Idx) : Host.divf a b i = Ideal.div (a i) (b i) := rfl
private theorem hexp_apply (a : FVec Ideal s φ) (i : s.Idx) : Host.exp a i = Ideal.exp (a i) := rfl
private theorem hlog_apply (a : FVec Ideal s φ) (i : s.Idx) : Host.log a i = Ideal.log (a i) := rfl
end HostAtIndex

/-- The temperature word is 1. -/
private theorem ofBits_one : Ideal.ofBits .f32 0x3F800000#32 = (1 : EReal) := by
  simp [Ideal.ofBits, Ideal.ieee]
  rw [← EReal.coe_mul]
  norm_num

private theorem div_one' (a : EReal) : Ideal.div a 1 = a := by
  simp [Ideal.div]

private theorem scaled_apply (x : FVec Ideal S16x19x512x512 .f32) (i : S16x19x512x512.Idx) :
    Term.scaled x i = x i := by
  unfold Term.scaled
  show Ideal.div (x i) _ = x i
  rw [StableHlo.Predicate.bcast_scalar _ Gen.h_S_, constant_apply, ofBits_one, div_one']

private theorem hred1 : S16x19x512x512.Reduces [1] S16x512x512 := by decide

private theorem lift1 (b : Fin 16) (h w : Fin 512) (k : Fin 19) :
    hred1.lift (ix3 b h w) k = ix4 b k h w := by
  funext a; match a with | ⟨0,_⟩ => rfl | ⟨1,_⟩ => rfl | ⟨2,_⟩ => rfl | ⟨3,_⟩ => rfl

/-- A pixel's maximum: the second maximum with −∞ is absorbed by the fold that starts from −∞. -/
private theorem pixMax_apply (x : FVec Ideal S16x19x512x512 .f32) (b : Fin 16) (h w : Fin 512) :
    Term.pixMax x (ix3 b h w) = Cert.Spec.colMax (fun c => x (ix4 b c h w)) := by
  unfold Term.pixMax
  rw [maximumf_apply, StableHlo.Predicate.bcast_scalar _ Gen.h_S_, constant_apply,
    Host.reduce_eq_fold_single FloatOps.maximumf _ _ _ hred1 Gen.h_S_]
  show max Cert.Spec.negInf ((Finset.univ : Finset (Fin 19)).fold max Cert.Spec.negInf
    (fun k => Term.scaled x (hred1.lift (ix3 b h w) k))) = _
  refine (max_eq_right ((Finset.le_fold_max _).2 (Or.inl le_rfl))).trans ?_
  unfold Cert.Spec.colMax
  congr 1
  funext k
  rw [scaled_apply]
  exact congrArg x (lift1 b h w k)

private theorem alongC_apply (y : FVec Ideal S16x512x512 .f32) (b : Fin 16) (c : Fin 19) (h w : Fin 512) :
    Term.alongC y (ix4 b c h w) = y (ix3 b h w) := by
  unfold Term.alongC
  rw [broadcastInDim_apply _ _ _ _ (ix4 b (0 : Fin 1) h w) (by
        intro a; match a with | ⟨0,_⟩ => rfl | ⟨1,_⟩ => rfl | ⟨2,_⟩ => rfl | ⟨3,_⟩ => rfl),
      broadcastInDim_apply _ _ _ _ (ix3 b h w) (by
        intro a; match a with | ⟨0,_⟩ => rfl | ⟨1,_⟩ => rfl | ⟨2,_⟩ => rfl)]

private theorem sumC_apply (y : FVec Ideal S16x19x512x512 .f32) (b : Fin 16) (h w : Fin 512) :
    Term.sumC y (ix3 b h w) = ∑ c : Fin 19, y (ix4 b c h w) := by
  unfold Term.sumC
  show Ideal.hostReduceAdd _ y _ _ = _
  rw [Ideal.hostReduceAdd_single _ hred1, constant_apply, Ideal.ofBits_zero_f32, zero_add]
  exact Finset.sum_congr rfl fun k _ => congrArg y (lift1 b h w k)

private theorem expd_apply (x : FVec Ideal S16x19x512x512 .f32) (b : Fin 16) (c : Fin 19) (h w : Fin 512) :
    Term.expd x (ix4 b c h w)
      = Ideal.exp (x (ix4 b c h w) - Cert.Spec.colMax (fun k => x (ix4 b k h w))) := by
  unfold Term.expd
  show Ideal.exp (subf (Term.scaled x) (Term.alongC (Term.pixMax x)) (ix4 b c h w)) = _
  rw [subf_apply, scaled_apply, alongC_apply, pixMax_apply]

/-- The reference's softmax at a pixel is the column softmax of that pixel's logits. -/
private theorem refPred_apply (x : FVec Ideal S16x19x512x512 .f32) (b : Fin 16) (c : Fin 19) (h w : Fin 512) :
    Term.refPred x (ix4 b c h w) = Cert.Spec.smax (fun k => x (ix4 b k h w)) c := by
  unfold Term.refPred
  show Ideal.div (Term.expd x (ix4 b c h w)) (Term.alongC (Term.sumC (Term.expd x)) (ix4 b c h w)) = _
  rw [alongC_apply, sumC_apply, expd_apply]
  unfold Cert.Spec.smax
  congr 1
  exact Finset.sum_congr rfl fun k _ => expd_apply x b k h w

/-- The logit column at the flattened pixel of (h, w) is the column at (h, w). -/
private theorem lcol_pix (x : FVec Ideal S16x19x512x512 .f32) (b : Fin 16) (h w : Fin 512) :
    Cert.Spec.lcol x b (Cert.Spec.pix h w) = fun c => x (ix4 b c h w) := by
  funext c
  unfold Cert.Spec.lcol
  congr 1
  have e2 : (⟨(Cert.Spec.pix h w).val / 512, by have := (Cert.Spec.pix h w).isLt; omega⟩ : Fin 512) = h :=
    Fin.ext (Cert.Spec.pix_div h w)
  have e3 : (⟨(Cert.Spec.pix h w).val % 512, Nat.mod_lt _ (by decide)⟩ : Fin 512) = w :=
    Fin.ext (Cert.Spec.pix_mod h w)
  rw [e2, e3]

/-- The reference's first result is the per-pixel softmax. -/
theorem refPred_eq (x : FVec Ideal S16x19x512x512 .f32) : Term.refPred x = Cert.Spec.predG x := by
  funext i
  obtain ⟨b, c, h, w, rfl⟩ : ∃ (b : Fin 16) (c : Fin 19) (h w : Fin 512), i = ix4 b c h w :=
    ⟨i 0, i 1, i 2, i 3, eq_ix4 i⟩
  rw [refPred_apply]
  show _ = Cert.Spec.smax (Cert.Spec.lcol x b (Cert.Spec.pix h w)) c
  rw [lcol_pix]

private theorem wrapped_apply (t : IVec S16x512x512 32) (j : S16x512x512.Idx) (hj : BitVec.toNat (t j) < 19) :
    Term.wrapped t j = t j := by
  unfold Term.wrapped
  rw [select_apply]
  have hc : cmpi .slt t (broadcastInDim S16x512x512 ![] Gen.bcast_S_S16x512x512 (constantI S_ 32 0#32)) j = 0#1 := by
    show IntOp.cmpi .slt (t j) (broadcastInDim S16x512x512 ![] Gen.bcast_S_S16x512x512 (constantI S_ 32 0#32) j) = 0#1
    rw [StableHlo.Predicate.bcast_scalar _ Gen.h_S_, constantI_apply]
    refine eq_zero_of_ne_one fun h1 => ?_
    have := (StableHlo.Predicate.slt_iff_toNat (by omega) (by decide)).1 h1
    simp at this
  rw [hc, select_zero]

private theorem startIdx_apply (t : IVec S16x512x512 32) (b : Fin 16) (h w : Fin 512) (k : Fin 1) :
    Term.startIdx t (ix4 b h w k) = Term.wrapped t (ix3 b h w) := by
  unfold Term.startIdx
  rw [broadcastInDim_apply _ _ _ _ (ix3 b h w) (by
        intro a; match a with | ⟨0,_⟩ => rfl | ⟨1,_⟩ => rfl | ⟨2,_⟩ => rfl)]

private theorem hred3 : S16x512x512x1.Reduces [3] S16x512x512 := by decide

private theorem lift3 (b : Fin 16) (h w : Fin 512) (k : Fin 1) :
    hred3.lift (ix3 b h w) k = ix4 b h w k := by
  funext a; match a with | ⟨0,_⟩ => rfl | ⟨1,_⟩ => rfl | ⟨2,_⟩ => rfl | ⟨3,_⟩ => rfl

/-- A fold of `and` from 1 over a one-element axis is the element. -/
private theorem fold_and_fin1 (f : Fin 1 → BitVec 1) :
    (Finset.univ : Finset (Fin 1)).fold IntOp.andi 1#1 f = f 0 := by
  rw [show (Finset.univ : Finset (Fin 1)) = {0} from rfl, Finset.fold_singleton]
  show f 0 &&& 1#1 = f 0
  rcases BitVec.eq_zero_or_eq_one (f 0) with h0 | h1
  · rw [h0]; decide
  · rw [h1]; decide

private theorem zeroA_apply (i : S16x512x512x1.Idx) :
    broadcastInDim S16x512x512x1 ![] Gen.bcast_S_S16x512x512x1 (constantI S_ 32 0#32) i = 0#32 := by
  rw [StableHlo.Predicate.bcast_scalar _ Gen.h_S_, constantI_apply]

private theorem eighteenA_apply (b : Fin 16) (h w : Fin 512) (k : Fin 1) :
    broadcastInDim S16x512x512x1 ![0, 1, 2, 3] Gen.bcast_S1x1x1x1_S16x512x512x1_0_1_2_3
      (broadcastInDim S1x1x1x1 ![3] Gen.bcast_S1_S1x1x1x1_3 (constantI S1 32 18#32)) (ix4 b h w k) = 18#32 := by
  rw [broadcastInDim_apply _ _ _ _ (ix4 (0 : Fin 1) (0 : Fin 1) (0 : Fin 1) (0 : Fin 1)) (by
        intro a; match a with | ⟨0,_⟩ => rfl | ⟨1,_⟩ => rfl | ⟨2,_⟩ => rfl | ⟨3,_⟩ => rfl),
      broadcastInDim_apply _ _ _ _ (ix1 (0 : Fin 1)) (by
        intro a; match a with | ⟨0,_⟩ => rfl), constantI_apply]

/-- A label below 19 passes both range tests. -/
private theorem inRange_apply (t : IVec S16x512x512 32) (b : Fin 16) (h w : Fin 512)
    (hj : BitVec.toNat (t (ix3 b h w)) < 19) : Term.inRange t (ix3 b h w) = 1#1 := by
  unfold Term.inRange
  rw [Host.reduce_eq_fold_single IntOp.andi _ _ _ hred3 Gen.h_S_]
  refine (fold_and_fin1 _).trans ?_
  show IntOp.andi (IntOp.cmpi .sge (Term.startIdx t (hred3.lift (ix3 b h w) (0 : Fin 1))) (broadcastInDim S16x512x512x1 ![] Gen.bcast_S_S16x512x512x1 (constantI S_ 32 0#32) (hred3.lift (ix3 b h w) (0 : Fin 1))))
    (IntOp.cmpi .sle (Term.startIdx t (hred3.lift (ix3 b h w) (0 : Fin 1))) (broadcastInDim S16x512x512x1 ![0, 1, 2, 3] Gen.bcast_S1x1x1x1_S16x512x512x1_0_1_2_3
      (broadcastInDim S1x1x1x1 ![3] Gen.bcast_S1_S1x1x1x1_3 (constantI S1 32 18#32)) (hred3.lift (ix3 b h w) (0 : Fin 1)))) = 1#1
  rw [lift3, startIdx_apply, wrapped_apply _ _ hj, zeroA_apply, eighteenA_apply,
    (StableHlo.Predicate.sge_iff_toNat (by omega) (by decide)).2 (by simp),
    (StableHlo.Predicate.sle_iff_toNat (by omega) (by decide)).2 (by simp; omega)]
  decide

/-- A start index read signed and clamped into [0, 18]. -/
private def clamp18 (τ : BitVec 32) : Fin 19 := ⟨min τ.toInt.toNat 18, by omega⟩

private theorem clamp18_eq_lbl {τ : BitVec 32} (hτ : τ.toNat < 19) : clamp18 τ = Cert.Spec.lbl τ := by
  apply Fin.ext
  show min τ.toInt.toNat 18 = τ.toNat % 19
  rw [StableHlo.Predicate.toInt_eq_toNat_of_lt (by omega), Int.toNat_natCast]
  omega

/-- The gather reads, at (c, b, h, w), row c of the matrix at the clamped start index of (b, h, w). -/
private theorem gather_apply (ncm : FVec Ideal S19x19 .f32) (idx : IVec S16x512x512x1 32)
    (c : Fin 19) (b : Fin 16) (h w : Fin 512) :
    Host.gather gather_S19x19_S16x512x512x1_S19x16x512x512_0_1_n_n_1_3_191 ncm idx (ix4 c b h w)
      = ncm (ix2 c (clamp18 (idx (ix4 b h w (0 : Fin 1))))) := by
  unfold Host.gather
  congr 1
  funext a
  match a with
  | ⟨0, _⟩ =>
    apply Fin.ext
    show gather_S19x19_S16x512x512x1_S19x16x512x512_0_1_n_n_1_3_191.start (ix4 c b h w) idx 0
      + gather_S19x19_S16x512x512x1_S19x16x512x512_0_1_n_n_1_3_191.batchCoord (ix4 c b h w) 0
      + gather_S19x19_S16x512x512x1_S19x16x512x512_0_1_n_n_1_3_191.offCoord (ix4 c b h w) 0 = c.val
    rw [GatherDims.batchCoord_eq_zero _ _ _ (by decide)]
    unfold GatherDims.start GatherDims.offCoord
    rw [dif_neg (by decide), dif_pos (by decide)]
    simp only [Nat.add_zero, Nat.zero_add]
    rfl
  | ⟨1, _⟩ =>
    apply Fin.ext
    show gather_S19x19_S16x512x512x1_S19x16x512x512_0_1_n_n_1_3_191.start (ix4 c b h w) idx 1
      + gather_S19x19_S16x512x512x1_S19x16x512x512_0_1_n_n_1_3_191.batchCoord (ix4 c b h w) 1
      + gather_S19x19_S16x512x512x1_S19x16x512x512_0_1_n_n_1_3_191.offCoord (ix4 c b h w) 1
      = min (idx (ix4 b h w (0 : Fin 1))).toInt.toNat 18
    rw [GatherDims.batchCoord_eq_zero _ _ _ (by decide), GatherDims.offCoord_eq_zero _ _ _ (by decide)]
    simp only [Nat.add_zero]
    unfold GatherDims.start
    rw [dif_pos (by decide)]
    have hsi : ∀ p, gather_S19x19_S16x512x512x1_S19x16x512x512_0_1_n_n_1_3_191.siIdx (ix4 c b h w)
        ⟨List.idxOf (1 : Fin 2) gather_S19x19_S16x512x512x1_S19x16x512x512_0_1_n_n_1_3_191.startIndexMap, p⟩
          = ix4 b h w (0 : Fin 1) := by
      intro p
      funext e; refine Fin.ext ?_
      match e with
      | ⟨0, _⟩ => rfl
      | ⟨1, _⟩ => rfl
      | ⟨2, _⟩ => rfl
      | ⟨3, _⟩ => rfl
    rw [hsi]
    rfl

/-- Where the label is a class the take reads the label's column. -/
private theorem taken_apply (ncm : FVec Ideal S19x19 .f32) (t : IVec S16x512x512 32)
    (c : Fin 19) (b : Fin 16) (h w : Fin 512) (hj : BitVec.toNat (t (ix3 b h w)) < 19) :
    Term.taken ncm t (ix4 c b h w) = ncm (ix2 c (Cert.Spec.lbl (t (ix3 b h w)))) := by
  unfold Term.taken
  rw [select_apply, broadcastInDim_apply _ _ _ _ (ix3 b h w) (by
        intro a; match a with | ⟨0,_⟩ => rfl | ⟨1,_⟩ => rfl | ⟨2,_⟩ => rfl),
    inRange_apply t b h w hj, select_one, gather_apply, startIdx_apply, wrapped_apply _ _ hj,
    clamp18_eq_lbl hj]

private theorem preP_apply (cm : FVec Ideal S19x19 .f32) (t : IVec S16x512x512 32)
    (b : Fin 16) (c : Fin 19) (h w : Fin 512) (hj : BitVec.toNat (t (ix3 b h w)) < 19) :
    Term.preP cm t (ix4 b c h w) = Cert.Spec.gcol (Cert.Spec.ncmOf cm) (t (ix3 b h w)) c := by
  unfold Term.preP
  rw [transpose_apply _ _ _ _ (ix4 c b h w) (by
        intro a; match a with | ⟨0,_⟩ => rfl | ⟨1,_⟩ => rfl | ⟨2,_⟩ => rfl | ⟨3,_⟩ => rfl),
    taken_apply _ _ _ _ _ _ hj]
  rfl

private theorem epsA_apply (i : S16x19x512x512.Idx) : Term.epsA (F := Ideal) i = Cert.Spec.eps := by
  unfold Term.epsA
  rw [StableHlo.Predicate.bcast_scalar _ Gen.h_S_, constant_apply]
  rfl

private theorem numel_apply (x : FVec Ideal S16x19x512x512 .f32) (t : IVec S16x512x512 32) (cm : FVec Ideal S19x19 .f32)
    (b : Fin 16) (c : Fin 19) (h w : Fin 512) (hj : BitVec.toNat (t (ix3 b h w)) < 19) :
    Term.numel x t cm (ix4 b c h w)
      = Cert.Spec.gcol (Cert.Spec.ncmOf cm) (t (ix3 b h w)) c * Cert.Spec.smax (fun k => x (ix4 b k h w)) c := by
  unfold Term.numel
  rw [mulf_apply, preP_apply _ _ _ _ _ _ hj, refPred_apply]

private theorem terms_apply (x : FVec Ideal S16x19x512x512 .f32) (t : IVec S16x512x512 32) (cm : FVec Ideal S19x19 .f32)
    (b : Fin 16) (c : Fin 19) (h w : Fin 512) (hj : BitVec.toNat (t (ix3 b h w)) < 19) :
    Term.terms x t cm (ix4 b c h w)
      = Ideal.div (Cert.Spec.gcol (Cert.Spec.ncmOf cm) (t (ix3 b h w)) c * Cert.Spec.smax (fun k => x (ix4 b k h w)) c)
          (∑ k : Fin 19, Cert.Spec.gcol (Cert.Spec.ncmOf cm) (t (ix3 b h w)) k * Cert.Spec.smax (fun k' => x (ix4 b k' h w)) k)
        * (Ideal.log (Cert.Spec.gcol (Cert.Spec.ncmOf cm) (t (ix3 b h w)) c + Cert.Spec.eps)
            + Ideal.log (Cert.Spec.smax (fun k => x (ix4 b k h w)) c + Cert.Spec.eps)) := by
  unfold Term.terms
  rw [mulf_apply, addf_apply, hdivf_apply, hlog_apply, hlog_apply, alongC_apply, sumC_apply, addf_apply, addf_apply, epsA_apply, preP_apply _ _ _ _ _ _ hj, refPred_apply,
    numel_apply _ _ _ _ _ _ _ hj]
  rw [Finset.sum_congr rfl fun k _ => numel_apply x t cm b k h w hj]

/-- A pixel's class sum of the reference's terms is the pixel's loss. -/
private theorem pixel_apply (x : FVec Ideal S16x19x512x512 .f32) (t : IVec S16x512x512 32) (cm : FVec Ideal S19x19 .f32)
    (b : Fin 16) (h w : Fin 512) (hj : BitVec.toNat (t (ix3 b h w)) < 19) :
    Term.sumC (Term.terms x t cm) (ix3 b h w)
      = Cert.Spec.pixLoss (Cert.Spec.gcol (Cert.Spec.ncmOf cm) (t (ix3 b h w))) (fun k => x (ix4 b k h w)) := by
  rw [sumC_apply]
  unfold Cert.Spec.pixLoss
  exact Finset.sum_congr rfl fun c _ => terms_apply x t cm b c h w hj

/-- The flattened pixel read back as (row, column). -/
private def rowOf (s : Fin 262144) : Fin 512 := ⟨s.val / 512, by omega⟩
private def colOf (s : Fin 262144) : Fin 512 := ⟨s.val % 512, Nat.mod_lt _ (by decide)⟩

/-- The host's sum over rows and columns of one image is the sum over its flattened pixels. -/
private theorem sumRows_apply (y : FVec Ideal S16x512x512 .f32) (i : S16.Idx) :
    Host.reduceAdd (F := Ideal) y (constant S_ .f32 0x00000000#32) Gen.reducesTo_S16x512x512_S16_d1_2 Gen.h_S_ i
      = ∑ s : Fin 262144, y (ix3 (i 0) (rowOf s) (colOf s)) := by
  show Ideal.hostReduceAdd _ y _ i = _
  unfold Ideal.hostReduceAdd
  rw [constant_apply, Ideal.ofBits_zero_f32, zero_add]
  refine Finset.sum_nbij' (fun i' => Cert.Spec.pix (i' 1) (i' 2)) (fun s => ix3 (i 0) (rowOf s) (colOf s)) ?_ ?_ ?_ ?_ ?_
  · intro i' _; exact Finset.mem_univ _
  · intro s _
    refine Finset.mem_filter.2 ⟨Finset.mem_univ _, ?_⟩
    funext a
    match a with
    | ⟨0, _⟩ => rfl
  · intro i' hi'
    have hd := (Finset.mem_filter.1 hi').2
    have h0 : i 0 = i' 0 := by rw [← hd]; rfl
    funext a
    match a with
    | ⟨0, _⟩ => exact h0
    | ⟨1, _⟩ => exact Fin.ext (Cert.Spec.pix_div (i' 1) (i' 2))
    | ⟨2, _⟩ => exact Fin.ext (Cert.Spec.pix_mod (i' 1) (i' 2))
  · intro s _
    apply Fin.ext
    show s.val / 512 * 512 + s.val % 512 = s.val
    omega
  · intro i' hi'
    have hd := (Finset.mem_filter.1 hi').2
    have h0 : i 0 = i' 0 := by rw [← hd]; rfl
    congr 1
    funext a
    match a with
    | ⟨0, _⟩ => exact h0.symm
    | ⟨1, _⟩ => exact (Fin.ext (Cert.Spec.pix_div (i' 1) (i' 2))).symm
    | ⟨2, _⟩ => exact (Fin.ext (Cert.Spec.pix_mod (i' 1) (i' 2))).symm

private theorem tcol_eq (t : IVec S16x512x512 32) (b : Fin 16) (s : Fin 262144) :
    Cert.Spec.tcol t b s = t (ix3 b (rowOf s) (colOf s)) := rfl

private theorem lcol_eq (x : FVec Ideal S16x19x512x512 .f32) (b : Fin 16) (s : Fin 262144) :
    Cert.Spec.lcol x b s = fun k => x (ix4 b k (rowOf s) (colOf s)) := rfl

/-- The reference's per-image sums are the per-image losses, when every label is a class. -/
theorem refLossSum_eq (x : FVec Ideal S16x19x512x512 .f32) (t : IVec S16x512x512 32) (cm : FVec Ideal S19x19 .f32)
    (hr : ∀ i : S16x512x512.Idx, BitVec.toNat (t i) < 19) :
    Term.refLossSum x t cm = Cert.Spec.lossG x t cm := by
  funext i
  obtain ⟨b, rfl⟩ : ∃ b : Fin 16, i = ix1 b := ⟨i 0, eq_ix1 i⟩
  unfold Term.refLossSum
  rw [sumRows_apply]
  show ∑ s : Fin 262144, Term.sumC (Term.terms x t cm) (ix3 b (rowOf s) (colOf s)) = Cert.Spec.imgLoss x t cm b
  unfold Cert.Spec.imgLoss
  refine Finset.sum_congr rfl fun s _ => ?_
  rw [pixel_apply x t cm b (rowOf s) (colOf s) (hr _), tcol_eq, lcol_eq]

end Cert.ReferenceIdeal.RefValue

end
-- ==== Proof.KernelPieces.lean ====
/-
  What each control case of the kernel body leaves in the two output staging buffers, as the
  body's pure payloads of the point's input blocks: the softmax block (written whole by one store
  in either case), and the loss accumulator (reset to zero and then added to at the first point of
  an image, added to what the point before left at every other point).
-/
import proofs.«422314_j88802743812528_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a rank-3 buffer's whole-block access, as a constant function. -/
private theorem hz3 : (![0, 0, 0] : Fin 3 → Nat) = fun _ => 0 := funext fun a => by fin_cases a <;> rfl

/-- The zero offset of the rank-2 table's whole-block access, as a constant function. -/
private theorem hz2 : (![0, 0] : Fin 2 → Nat) = fun _ => 0 := funext fun a => by fin_cases a <;> rfl

theorem predA (c : Dev nD) (i : grid0.Coords) (arg2 : Memref sig .tc .vmem S1x19x8192 .f32) (harg2 : arg2.IsWhole) (arg3 : Memref sig .tc .vmem S1x1x8192 .i32) (harg3 : arg3.IsWhole) (arg4 : Memref sig .tc .vmem S19x19 .f32) (harg4 : arg4.IsWhole) (arg5 : Memref sig .tc .vmem S1x19x8192 .f32) (harg5 : arg5.IsWhole) (arg6 : Memref sig .tc .vmem S1x1x128 .f32) (harg6 : arg6.IsWhole) (hc0 : cond0_0 i)
    (x0 : Vec F S1x19x8192 .f32) (x1 : Vec F S1x1x8192 .i32) (x2 : Vec F S19x19 .f32) :
    out0_A_3 c i arg2 harg2 arg3 harg3 arg4 harg4 arg5 harg5 arg6 harg6 hc0 x0 x1 x2 = k0_pay3 (k0_pay4 x0) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, harg2.read_unread, View.ld_unit_zero (S := S1x19x8192) hz3, shapeCast_self]

theorem accA (c : Dev nD) (i : grid0.Coords) (arg2 : Memref sig .tc .vmem S1x19x8192 .f32) (harg2 : arg2.IsWhole) (arg3 : Memref sig .tc .vmem S1x1x8192 .i32) (harg3 : arg3.IsWhole) (arg4 : Memref sig .tc .vmem S19x19 .f32) (harg4 : arg4.IsWhole) (arg5 : Memref sig .tc .vmem S1x19x8192 .f32) (harg5 : arg5.IsWhole) (arg6 : Memref sig .tc .vmem S1x1x128 .f32) (harg6 : arg6.IsWhole) (hc0 : cond0_0 i)
    (x0 : Vec F S1x19x8192 .f32) (x1 : Vec F S1x1x8192 .i32) (x2 : Vec F S19x19 .f32) :
    out0_A_4 c i arg2 harg2 arg3 harg3 arg4 harg4 arg5 harg5 arg6 harg6 hc0 x0 x1 x2 = k0_pay2 (k0_pay5 x0 x1 x2) (k0_pay1 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread,
    View.ld_unit_zero (S := S1x19x8192) hz3, View.ld_unit_zero (S := S1x1x8192) hz3,
    View.ld_unit_zero (S := S19x19) hz2, shapeCast_self]

theorem predB (c : Dev nD) (i : grid0.Coords) (arg2 : Memref sig .tc .vmem S1x19x8192 .f32) (harg2 : arg2.IsWhole) (arg3 : Memref sig .tc .vmem S1x1x8192 .i32) (harg3 : arg3.IsWhole) (arg4 : Memref sig .tc .vmem S19x19 .f32) (harg4 : arg4.IsWhole) (arg5 : Memref sig .tc .vmem S1x19x8192 .f32) (harg5 : arg5.IsWhole) (arg6 : Memref sig .tc .vmem S1x1x128 .f32) (harg6 : arg6.IsWhole) (hc0 : ¬cond0_0 i)
    (x0 : Vec F S1x19x8192 .f32) (x1 : Vec F S1x1x8192 .i32) (x2 : Vec F S19x19 .f32) (xo4 : Vec F S1x1x128 .f32) :
    out0_B_3 c i arg2 harg2 arg3 harg3 arg4 harg4 arg5 harg5 arg6 harg6 hc0 x0 x1 x2 xo4 = k0_pay3 (k0_pay4 x0) := by
  unfold out0_B_3
  rw [View.read_writes_eq_canon _ _ _ (cover0_B_3 c i arg2 harg2 arg3 harg3 arg4 harg4 arg5 harg5 arg6 harg6 hc0 x0 x1 x2 xo4)]
  unfold kernelRun0_B
  dsimp only
  sl_unfold_words
  rw [View.canon_unit_zero hz3]
  simp only [View.readAt_eq_ld, harg2.read_unread, View.ld_unit_zero (S := S1x19x8192) hz3, shapeCast_self]

theorem accB (c : Dev nD) (i : grid0.Coords) (arg2 : Memref sig .tc .vmem S1x19x8192 .f32) (harg2 : arg2.IsWhole) (arg3 : Memref sig .tc .vmem S1x1x8192 .i32) (harg3 : arg3.IsWhole) (arg4 : Memref sig .tc .vmem S19x19 .f32) (harg4 : arg4.IsWhole) (arg5 : Memref sig .tc .vmem S1x19x8192 .f32) (harg5 : arg5.IsWhole) (arg6 : Memref sig .tc .vmem S1x1x128 .f32) (harg6 : arg6.IsWhole) (hc0 : ¬cond0_0 i)
    (x0 : Vec F S1x19x8192 .f32) (x1 : Vec F S1x1x8192 .i32) (x2 : Vec F S19x19 .f32) (xo4 : Vec F S1x1x128 .f32) :
    out0_B_4 c i arg2 harg2 arg3 harg3 arg4 harg4 arg5 harg5 arg6 harg6 hc0 x0 x1 x2 xo4 = k0_pay2 (k0_pay5 x0 x1 x2) xo4 := by
  unfold out0_B_4
  rw [View.read_writes_eq_canon _ _ _ (cover0_B_4 c i arg2 harg2 arg3 harg3 arg4 harg4 arg5 harg5 arg6 harg6 hc0 x0 x1 x2 xo4)]
  unfold kernelRun0_B
  dsimp only
  sl_unfold_words
  rw [View.canon_unit_zero hz3]
  simp only [View.readAt_eq_ld, harg2.read_unread, harg3.read_unread, harg4.read_unread, harg6.read_unread,
    View.ld_unit_zero (S := S1x19x8192) hz3, View.ld_unit_zero (S := S1x1x8192) hz3,
    View.ld_unit_zero (S := S19x19) hz2, View.ld_unit_zero (S := S1x1x128) hz3, shapeCast_self]

end Cert.KernelIdeal.Pieces

end
-- ==== Proof.KernelPay.lean ====
/-
  The kernel body's payloads read at an index, on the extended reals: the softmax of a logit
  column; the block's loss as the sum over its 8192 pixels of the per-pixel loss (the one-hot
  product with the confusion matrix collapses to the label's column when the label is a class);
  the accumulator's update; the zero block.
-/
import proofs.«422314_j88802743812528_1_alg».proof.Proof.Gen.KernelIdeal.Skeleton
import proofs.«422314_j88802743812528_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## Small readings at an index -/

private theorem exp_apply {s : Shape} {φ : FTy} (x : FVec Ideal s φ) (i : s.Idx) : exp x i = Ideal.exp (x i) := rfl
private theorem log_apply {s : Shape} {φ : FTy} (x : FVec Ideal s φ) (i : s.Idx) : log x i = Ideal.log (x i) := rfl

/-- A lane vector given a unit row axis and then repeated over the 19 classes reads, at class `c` and lane `l`, the lane. -/
private theorem laneBcast_apply {α : Type} (w : S8192.Idx → α) (c : Fin 19) (l : Fin 8192) :
    broadcastTo S19x8192 (shapeCast S1x8192 w shapeCasts_S8192_S1x8192) broadcasts_S1x8192_S19x8192 (ix2 c l) = w (ix1 l) :=
  (broadcastTo_1b_ab_apply _ broadcasts_S1x8192_S19x8192 c l).trans
    (shapeCast_a_1a_apply w shapeCasts_S8192_S1x8192 (0 : Fin 1) l)

/-- The index a reduction over the class axis lifts lane `l` to, at class `k`. -/
private theorem lift_eq (l : Fin 8192) (k : Fin 19) :
    reduces_S19x8192_S8192.lift (ix1 l) k = ix2 k l := by
  funext a; apply Fin.ext
  match a with
  | ⟨0, _⟩ => rfl
  | ⟨1, _⟩ => rfl

/-- The maximum over the class axis, at lane `l`, is the column's maximum. -/
private theorem colmax_apply (v : FVec Ideal S19x8192 .f32) (hφ : FKind.Formats .f32)
    (hacc : (0xFF800000#32 : BitVec 32) = FKind.maximumf.neutral .f32 hφ) (l : Fin 8192) :
    multiReduction .maximumf [0] S8192 v 0xFF800000#32 reduces_S19x8192_S8192 hφ hacc (ix1 l)
      = Cert.Spec.colMax (fun k : Fin 19 => v (ix2 k l)) := by
  refine (Ideal.multiReduction_maximumf_single v _ reduces_S19x8192_S8192 hφ hacc (ix1 l)).trans ?_
  have e : (v ∘ reduces_S19x8192_S8192.lift (ix1 l)) = fun k : Fin 19 => v (ix2 k l) :=
    funext fun k => congrArg v (lift_eq l k)
  rw [e]
  rfl

/-- The sum over the class axis, at lane `l`, is the column's sum. -/
private theorem colsum_apply (v : FVec Ideal S19x8192 .f32) (hφ : FKind.Formats .f32)
    (hacc : (0x00000000#32 : BitVec 32) = FKind.add.neutral .f32 hφ) (l : Fin 8192) :
    multiReduction .add [0] S8192 v 0x00000000#32 reduces_S19x8192_S8192 hφ hacc (ix1 l)
      = ∑ k : Fin 19, v (ix2 k l) := by
  refine (Ideal.multiReduction_add_single v _ reduces_S19x8192_S8192 hφ hacc (ix1 l)).trans ?_
  exact Finset.sum_congr rfl fun k _ => congrArg v (lift_eq l k)

/-- The softmax chain of the body on a 19 × 8192 block, read at class `c`, lane `l`. -/
private theorem softmax_apply (v : FVec Ideal S19x8192 .f32) (hφ : FKind.Formats .f32)
    (hm : (0xFF800000#32 : BitVec 32) = FKind.maximumf.neutral .f32 hφ)
    (ha : (0x00000000#32 : BitVec 32) = FKind.add.neutral .f32 hφ) (c : Fin 19) (l : Fin 8192) :
    divf
        (exp (subf v (broadcastTo S19x8192 (shapeCast S1x8192
          (multiReduction .maximumf [0] S8192 v 0xFF800000#32 reduces_S19x8192_S8192 hφ hm) shapeCasts_S8192_S1x8192)
          broadcasts_S1x8192_S19x8192)))
        (broadcastTo S19x8192 (shapeCast S1x8192
          (multiReduction .add [0] S8192
            (exp (subf v (broadcastTo S19x8192 (shapeCast S1x8192
              (multiReduction .maximumf [0] S8192 v 0xFF800000#32 reduces_S19x8192_S8192 hφ hm) shapeCasts_S8192_S1x8192)
              broadcasts_S1x8192_S19x8192)))
            0x00000000#32 reduces_S19x8192_S8192 hφ ha) shapeCasts_S8192_S1x8192)
          broadcasts_S1x8192_S19x8192) (ix2 c l)
      = Cert.Spec.smax (fun k : Fin 19 => v (ix2 k l)) c := by
  have hE : ∀ k : Fin 19,
      exp (subf v (broadcastTo S19x8192 (shapeCast S1x8192
          (multiReduction .maximumf [0] S8192 v 0xFF800000#32 reduces_S19x8192_S8192 hφ hm) shapeCasts_S8192_S1x8192)
          broadcasts_S1x8192_S19x8192)) (ix2 k l)
        = Ideal.exp (v (ix2 k l) - Cert.Spec.colMax (fun k : Fin 19 => v (ix2 k l))) := fun k => by
    rw [exp_apply, subf_apply, laneBcast_apply, colmax_apply]
  rw [divf_apply, hE c, laneBcast_apply, colsum_apply]
  unfold Cert.Spec.smax
  exact congrArg (Ideal.div _) (Finset.sum_congr rfl fun k _ => hE k)

/-- The softmax payload at class `c`, lane `l`: the softmax of the block's logit column at that lane. -/
theorem pay4_apply (x0 : Vec Ideal S1x19x8192 .f32) (c : Fin 19) (l : Fin 8192) :
    k0_pay4 (F := Ideal) x0 (ix2 c l) = Cert.Spec.smax (fun k : Fin 19 => x0 (ix3 (0 : Fin 1) k l)) c := by
  unfold k0_pay4
  refine (softmax_apply (shapeCast S19x8192 x0 shapeCasts_S1x19x8192_S19x8192) _ _ _ c l).trans ?_
  exact congrArg (fun v => Cert.Spec.smax v c)
    (funext fun k => shapeCast_1ab_ab_apply x0 shapeCasts_S1x19x8192_S19x8192 k l)

/-- The stored block is the softmax payload with a unit axis in front. -/
theorem pay3_apply (v : FVec Ideal S19x8192 .f32) (c : Fin 19) (l : Fin 8192) :
    k0_pay3 (F := Ideal) v (ix3 (0 : Fin 1) c l) = v (ix2 c l) := by
  unfold k0_pay3
  exact shapeCast_ab_1ab_apply v shapeCasts_S19x8192_S1x19x8192 (0 : Fin 1) c l

/-! ## The one-hot product -/

/-- The block's one label row `[1, 1, 8192]` viewed as a lane vector reads the label at the lane. -/
private theorem lblCast_apply {α : Type} (x : S1x1x8192.Idx → α) (l : Fin 8192) :
    shapeCast S8192 x shapeCasts_S1x1x8192_S8192 (ix1 l) = x (ix3 (0 : Fin 1) (0 : Fin 1) l) :=
  shapeCast_apply x shapeCasts_S1x1x8192_S8192 _ _ (by
    rw [Shape.rowMajor_val_three, Shape.rowMajor_val_one]
    show (0 * 1 + 0) * 8192 + l.val = l.val
    omega)

/-- The comparison word widened and read signed: one where the two words agree, zero elsewhere. -/
private theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    have e : ((IntOp.cmpi .eq a a).setWidth 32) = 1#32 := by simp [IntOp.cmpi]
    rw [e, if_pos rfl]
    norm_num
  · have hb : (a == b) = false := beq_eq_false_iff_ne.mpr h
    have e : ((IntOp.cmpi .eq a b).setWidth 32) = 0#32 := by simp [IntOp.cmpi, hb]
    rw [e, if_neg h]
    norm_num

private theorem lhs_ax0 (j : S19x8192.Idx) (k : dot_S19x19_S19x8192_S19x8192_1_0_0_1_n_n.contr.Idx) :
    (dot_S19x19_S19x8192_S19x8192_1_0_0_1_n_n.lhsIdx j k 0).val = (j 0).val := by
  simp [DotDims.lhsIdx, dot_S19x19_S19x8192_S19x8192_1_0_0_1_n_n]; rfl

private theorem lhs_ax1 (j : S19x8192.Idx) (k : dot_S19x19_S19x8192_S19x8192_1_0_0_1_n_n.contr.Idx) :
    (dot_S19x19_S19x8192_S19x8192_1_0_0_1_n_n.lhsIdx j k 1).val = (k ⟨0, by decide⟩).val :=
  dot_S19x19_S19x8192_S19x8192_1_0_0_1_n_n.lhsIdx_val_of_single rfl j k

private theorem rhs_ax0 (j : S19x8192.Idx) (k : dot_S19x19_S19x8192_S19x8192_1_0_0_1_n_n.contr.Idx) :
    (dot_S19x19_S19x8192_S19x8192_1_0_0_1_n_n.rhsIdx j k 0).val = (k ⟨0, by decide⟩).val :=
  dot_S19x19_S19x8192_S19x8192_1_0_0_1_n_n.rhsIdx_val_of_single rfl j k

private theorem rhs_ax1 (j : S19x8192.Idx) (k : dot_S19x19_S19x8192_S19x8192_1_0_0_1_n_n.contr.Idx) :
    (dot_S19x19_S19x8192_S19x8192_1_0_0_1_n_n.rhsIdx j k 1).val = (j 1).val := by
  simp [DotDims.rhsIdx, dot_S19x19_S19x8192_S19x8192_1_0_0_1_n_n]; rfl

/-- The product of a 19 × 19 matrix with a 19 × 8192 block into the zero block, at class `c`, lane `l`. -/
private theorem matmul19_apply {φ₁ φ₂ : FTy} (A : FVec Ideal S19x19 φ₁) (B : FVec Ideal S19x8192 φ₂) (c : Fin 19) (l : Fin 8192) :
    matmul dot_S19x19_S19x8192_S19x8192_1_0_0_1_n_n none A B (constant S19x8192 .f32 0x00000000#32) (ix2 c l)
      = ∑ k : Fin 19, A (ix2 c k) * B (ix2 k l) := by
  show FloatOps.matmul dot_S19x19_S19x8192_S19x8192_1_0_0_1_n_n none A B (constant S19x8192 .f32 0x00000000#32) (ix2 c l) = _
  rw [Ideal.matmul_constant_zero_apply,
    ← Equiv.sum_comp (contrEquiv1 dot_S19x19_S19x8192_S19x8192_1_0_0_1_n_n 19 rfl rfl).symm]
  refine Finset.sum_congr rfl fun k _ => ?_
  have ck := contrEquiv1_symm_val dot_S19x19_S19x8192_S19x8192_1_0_0_1_n_n 19 rfl rfl k
  have hl : dot_S19x19_S19x8192_S19x8192_1_0_0_1_n_n.lhsIdx (ix2 c l)
      ((contrEquiv1 dot_S19x19_S19x8192_S19x8192_1_0_0_1_n_n 19 rfl rfl).symm k) = ix2 c k := by
    funext ax; apply Fin.ext
    match ax with
    | ⟨0, _⟩ => exact lhs_ax0 _ _
    | ⟨1, _⟩ => exact (lhs_ax1 _ _).trans ck
  have hr : dot_S19x19_S19x8192_S19x8192_1_0_0_1_n_n.rhsIdx (ix2 c l)
      ((contrEquiv1 dot_S19x19_S19x8192_S19x8192_1_0_0_1_n_n 19 rfl rfl).symm k) = ix2 k l := by
    funext ax; apply Fin.ext
    match ax with
    | ⟨0, _⟩ => exact (rhs_ax0 _ _).trans ck
    | ⟨1, _⟩ => exact rhs_ax1 _ _
  rw [hl, hr]

private theorem cmpi_apply {s : Shape} {w : Nat} (p : CmpIPredicate) (x y : IVec s w) (i : s.Idx) :
    cmpi p x y i = IntOp.cmpi p (x i) (y i) := rfl

/-- The labels' one-hot block at class `k`, lane `l`: one where the class is the lane's label, zero elsewhere. -/
private theorem onehot_apply (x1 : IVec S1x1x8192 32) (k : Fin 19) (l : Fin 8192) :
    (truncf (F := Ideal) .bf16 (sitofp (F := Ideal) .f32 (extui 32 (cmpi .eq (iota .tc S19x8192 32 [0] iota_S19x8192_d0_w32)
        (broadcastTo S19x8192 (shapeCast S1x8192 (shapeCast S1x8192 (shapeCast S8192 x1 shapeCasts_S1x1x8192_S8192)
          shapeCasts_S8192_S1x8192) shapeCasts_S1x8192_S1x8192) broadcasts_S1x8192_S19x8192)) natLt_1_32)) bitsLt_bf16_f32) (ix2 k l)
      = if BitVec.ofNat 32 k.val = x1 (ix3 (0 : Fin 1) (0 : Fin 1) l) then 1 else 0 := by
  rw [truncf_apply, sitofp_apply, extui_apply, cmpi_apply, iota_single_apply, shapeCast_self, laneBcast_apply, lblCast_apply]
  exact onehot_word _ _

/-- A sum against the indicator of the label's class keeps the label's term, when the label is a class. -/
private theorem gather_sum (f : Fin 19 → EReal) (τ : BitVec 32) (h : τ.toNat < 19) :
    ∑ k : Fin 19, f k * (if BitVec.ofNat 32 k.val = τ then 1 else 0) = f (Cert.Spec.lbl τ) := by
  rw [Finset.sum_eq_single (Cert.Spec.lbl τ)]
  · rw [if_pos, mul_one]
    apply BitVec.eq_of_toNat_eq
    rw [BitVec.toNat_ofNat, Cert.Spec.lbl_val_of_lt h]
    exact Nat.mod_eq_of_lt τ.isLt
  · intro k _ hk
    rw [if_neg, mul_zero]
    intro e
    apply hk
    apply Fin.ext
    rw [Cert.Spec.lbl_val_of_lt h, ← e, BitVec.toNat_ofNat]
    exact (Nat.mod_eq_of_lt (by have := k.isLt; omega)).symm
  · intro hn; exact absurd (Finset.mem_univ _) hn

/-- The confusion matrix times the labels' one-hot block. -/
private def preP (x1 : IVec S1x1x8192 32) (x2 : FVec Ideal S19x19 .f32) : FVec Ideal S19x8192 .f32 :=
  matmul (F := Ideal) dot_S19x19_S19x8192_S19x8192_1_0_0_1_n_n none
    (truncf (F := Ideal) .bf16 (shapeCast S19x19 x2 shapeCasts_S19x19_S19x19) bitsLt_bf16_f32)
    (truncf (F := Ideal) .bf16 (sitofp (F := Ideal) .f32 (extui 32 (cmpi .eq (iota .tc S19x8192 32 [0] iota_S19x8192_d0_w32)
        (broadcastTo S19x8192 (shapeCast S1x8192 (shapeCast S1x8192 (shapeCast S8192 x1 shapeCasts_S1x1x8192_S8192)
          shapeCasts_S8192_S1x8192) shapeCasts_S1x8192_S1x8192) broadcasts_S1x8192_S19x8192)) natLt_1_32)) bitsLt_bf16_f32)
    (constant (F := Ideal) S19x8192 .f32 0x00000000#32)

/-- At a lane whose label is a class, the product is the label's column of the matrix. -/
private theorem preP_apply (x1 : IVec S1x1x8192 32) (x2 : FVec Ideal S19x19 .f32) (c : Fin 19) (l : Fin 8192)
    (h : (x1 (ix3 (0 : Fin 1) (0 : Fin 1) l)).toNat < 19) :
    preP x1 x2 (ix2 c l) = Cert.Spec.gcol x2 (x1 (ix3 (0 : Fin 1) (0 : Fin 1) l)) c := by
  unfold preP
  refine (matmul19_apply _ _ c l).trans ?_
  refine Eq.trans (Finset.sum_congr rfl fun k _ => ?_)
    (gather_sum (fun k => x2 (ix2 c k)) (x1 (ix3 (0 : Fin 1) (0 : Fin 1) l)) h)
  rw [onehot_apply, truncf_apply, shapeCast_self]

/-- A lane's loss from the block of gathered columns `M` and the softmax block `Sx`. -/
private def laneLoss (M Sx : FVec Ideal S19x8192 .f32) : FVec Ideal S8192 .f32 :=
  multiReduction (F := Ideal) .add [0] S8192
    (mulf
      (divf (mulf M Sx)
        (broadcastTo S19x8192 (shapeCast S1x8192
          (multiReduction (F := Ideal) .add [0] S8192 (mulf M Sx) 0x00000000#32 reduces_S19x8192_S8192 (.inl rfl) rfl)
          shapeCasts_S8192_S1x8192) broadcasts_S1x8192_S19x8192))
      (addf (log (addf M (broadcast S19x8192 (Scalar.ofBits .f32 0x322BCC77#32))))
            (log (addf Sx (broadcast S19x8192 (Scalar.ofBits .f32 0x322BCC77#32))))))
    0x00000000#32 reduces_S19x8192_S8192 (.inl rfl) rfl

/-- The block's loss: the lanes' losses summed. -/
private def blockLoss (M Sx : FVec Ideal S19x8192 .f32) : FVec Ideal S1 .f32 :=
  multiReduction (F := Ideal) .add [1, 2] S1
    (shapeCast S1x1x8192 (shapeCast S1x8192 (laneLoss M Sx) shapeCasts_S8192_S1x8192) shapeCasts_S1x8192_S1x1x8192)
    0x00000000#32 reduces_S1x1x8192_S1 (.inl rfl) rfl

private theorem pay5_eq (x0 : Vec Ideal S1x19x8192 .f32) (x1 : Vec Ideal S1x1x8192 .i32) (x2 : Vec Ideal S19x19 .f32) :
    k0_pay5 (F := Ideal) x0 x1 x2 = blockLoss (preP x1 x2) (k0_pay4 (F := Ideal) x0) := rfl

private theorem laneLoss_apply (M Sx : FVec Ideal S19x8192 .f32) (l : Fin 8192) :
    laneLoss M Sx (ix1 l)
      = ∑ c : Fin 19, Ideal.div (M (ix2 c l) * Sx (ix2 c l)) (∑ k : Fin 19, M (ix2 k l) * Sx (ix2 k l))
          * (Ideal.log (M (ix2 c l) + Cert.Spec.eps) + Ideal.log (Sx (ix2 c l) + Cert.Spec.eps)) := by
  unfold laneLoss
  refine (colsum_apply _ _ _ l).trans ?_
  refine Finset.sum_congr rfl fun c _ => ?_
  rw [mulf_apply, divf_apply, laneBcast_apply]
  exact congrArg₂ (· * ·) (congrArg (Ideal.div _) (colsum_apply _ _ _ l)) rfl

/-- The lanes of a `[1, 1, 8192]` block. -/
private def laneEquiv : Fin 8192 ≃ S1x1x8192.Idx where
  toFun l := ix3 (0 : Fin 1) (0 : Fin 1) l
  invFun i := i 2
  left_inv _ := rfl
  right_inv i := by
    obtain ⟨a, b, l, rfl⟩ : ∃ (a : Fin 1) (b : Fin 1) (l : Fin 8192), i = ix3 a b l := ⟨i 0, i 1, i 2, eq_ix3 i⟩
    rw [Fin.eq_zero a, Fin.eq_zero b]

private theorem blockLoss_apply (M Sx : FVec Ideal S19x8192 .f32) (j : S1.Idx) :
    blockLoss M Sx j = ∑ l : Fin 8192, laneLoss M Sx (ix1 l) := by
  unfold blockLoss
  refine (Ideal.multiReduction_add_total _ _ reduces_S1x1x8192_S1
    (fun b => match b with | ⟨0, _⟩ => rfl) _ _ j).trans ?_
  rw [← Equiv.sum_comp laneEquiv]
  refine Finset.sum_congr rfl fun l _ => ?_
  exact (shapeCast_ab_1ab_apply _ shapeCasts_S1x8192_S1x1x8192 (0 : Fin 1) (0 : Fin 1) l).trans
    (shapeCast_a_1a_apply _ shapeCasts_S8192_S1x8192 (0 : Fin 1) l)

/-- The block's loss: the sum over its lanes of the per-pixel loss, when every label of the block is a class. -/
theorem pay5_apply (x0 : Vec Ideal S1x19x8192 .f32) (x1 : Vec Ideal S1x1x8192 .i32) (x2 : Vec Ideal S19x19 .f32)
    (hr : ∀ l : Fin 8192, BitVec.toNat (x1 (ix3 (0 : Fin 1) (0 : Fin 1) l)) < 19) (j : S1.Idx) :
    k0_pay5 (F := Ideal) x0 x1 x2 j
      = ∑ l : Fin 8192, Cert.Spec.pixLoss (Cert.Spec.gcol x2 (x1 (ix3 (0 : Fin 1) (0 : Fin 1) l))) (fun k : Fin 19 => x0 (ix3 (0 : Fin 1) k l)) := by
  rw [pay5_eq, blockLoss_apply]
  refine Finset.sum_congr rfl fun l _ => ?_
  rw [laneLoss_apply]
  unfold Cert.Spec.pixLoss
  have hM : ∀ c : Fin 19, preP x1 x2 (ix2 c l) = Cert.Spec.gcol x2 (x1 (ix3 (0 : Fin 1) (0 : Fin 1) l)) c :=
    fun c => preP_apply x1 x2 c l (hr l)
  have hS : ∀ c : Fin 19, k0_pay4 (F := Ideal) x0 (ix2 c l) = Cert.Spec.smax (fun k : Fin 19 => x0 (ix3 (0 : Fin 1) k l)) c :=
    fun c => pay4_apply x0 c l
  simp only [hM, hS]

/-- The accumulator's update: every lane gets what it held plus the block's loss. -/
theorem pay2_apply (v41 : FVec Ideal S1 .f32) (v47 : Vec Ideal S1x1x128 .f32) (j : S1x1x128.Idx) :
    k0_pay2 (F := Ideal) v41 v47 j = v47 j + v41 (ix1 (0 : Fin 1)) := by
  unfold k0_pay2
  show shapeCast S1x1x128 v47 shapeCasts_S1x1x128_S1x1x128 j
      + extractAt ![0, 0, 0] (shapeCast S1x1x1 v41 shapeCasts_S1_S1x1x1) inpos_S1x1x1_p0_0_0 = _
  rw [shapeCast_self]
  refine congrArg (v47 j + ·) ?_
  unfold extractAt
  refine shapeCast_apply v41 shapeCasts_S1_S1x1x1 _ (ix1 (0 : Fin 1)) ?_
  rw [Shape.rowMajor_val_three, Shape.rowMajor_val_one]
  rfl

/-- The reset block is zero. -/
theorem pay1_apply (j : S1x1x128.Idx) : k0_pay1 (F := Ideal) j = 0 := by
  unfold k0_pay1
  exact Ideal.ofBits_zero_f32

end Cert.KernelIdeal.Pay

end
-- ==== Proof.KernelHost.lean ====
/-
  The host operations around the kernel's region, read at an index: before it, the logits and
  labels are reshaped so that each image's pixels lie along one axis (pixel s is row s / 512,
  column s % 512) and the confusion matrix is softmaxed along its rows; after it, the softmax array
  is reshaped back, and lane 0 of each image's accumulated loss goes through the mean-and-negate.
-/
import proofs.«422314_j88802743812528_1_alg».proof.Proof.Gen.KernelIdeal.Frame
import proofs.«422314_j88802743812528_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The reshapes and the lane pick, read at an index -/

/-- A [16, 19, 512, 512] array with its last two axes flattened reads, at (b, k, s), the operand at
    (b, k, s / 512, s % 512): both have row-major position ((b·19 + k)·512 + s / 512)·512 + s % 512. -/
private theorem shapeCast_flat4_apply {α : Type} (x : (⟨4, ![16, 19, 512, 512]⟩ : Shape).Idx → α)
    (h : (⟨4, ![16, 19, 512, 512]⟩ : Shape).ShapeCasts ⟨3, ![16, 19, 262144]⟩) (b : Fin 16) (k : Fin 19) (s : Fin 262144) :
    shapeCast ⟨3, ![16, 19, 262144]⟩ x h (ix3 b k s)
      = x (ix4 b k ⟨s.val / 512, by omega⟩ ⟨s.val % 512, Nat.mod_lt _ (by decide)⟩) :=
  shapeCast_apply x h _ _ (by
    rw [Shape.rowMajor_val_four, Shape.rowMajor_val_three]
    show ((b.val * 19 + k.val) * 512 + s.val / 512) * 512 + s.val % 512 = (b.val * 19 + k.val) * 262144 + s.val
    omega)

/-- A [16, 512, 512] array cast to [16, 1, 262144] reads, at (b, 0, s), the operand at (b, s / 512, s % 512). -/
private theorem shapeCast_flat3_apply {α : Type} (x : (⟨3, ![16, 512, 512]⟩ : Shape).Idx → α)
    (h : (⟨3, ![16, 512, 512]⟩ : Shape).ShapeCasts ⟨3, ![16, 1, 262144]⟩) (b : Fin 16) (u : Fin 1) (s : Fin 262144) :
    shapeCast ⟨3, ![16, 1, 262144]⟩ x h (ix3 b u s)
      = x (ix3 b ⟨s.val / 512, by omega⟩ ⟨s.val % 512, Nat.mod_lt _ (by decide)⟩) :=
  shapeCast_apply x h _ _ (by
    have hu : u.val = 0 := by omega
    rw [Shape.rowMajor_val_three, Shape.rowMajor_val_three]
    show (b.val * 512 + s.val / 512) * 512 + s.val % 512 = (b.val * 1 + u.val) * 262144 + s.val
    omega)

/-- A [16, 19, 262144] array with its last axis split into 512 rows of 512 reads, at (b, k, r, w), the operand at
    (b, k, r·512 + w). -/
private theorem shapeCast_split4_apply {α : Type} (x : (⟨3, ![16, 19, 262144]⟩ : Shape).Idx → α)
    (h : (⟨3, ![16, 19, 262144]⟩ : Shape).ShapeCasts ⟨4, ![16, 19, 512, 512]⟩) (b : Fin 16) (k : Fin 19) (r w : Fin 512) :
    shapeCast ⟨4, ![16, 19, 512, 512]⟩ x h (ix4 b k r w) = x (ix3 b k (Cert.Spec.pix r w)) :=
  shapeCast_apply x h _ _ (by
    rw [Shape.rowMajor_val_three, Shape.rowMajor_val_four]
    show (b.val * 19 + k.val) * 262144 + (r.val * 512 + w.val) = ((b.val * 19 + k.val) * 512 + r.val) * 512 + w.val
    omega)

/-- Entry (b, 0, 0) of a [16, 1, 128] array, picked out by the slice [0:16, 0:1, 0:1] and the cast to [16]. -/
private theorem lane0_apply {α : Type} (x : (⟨3, ![16, 1, 128]⟩ : Shape).Idx → α)
    (hs : (⟨3, ![16, 1, 128]⟩ : Shape).Slices ![0, 0, 0] ⟨3, ![16, 1, 1]⟩)
    (hc : (⟨3, ![16, 1, 1]⟩ : Shape).ShapeCasts ⟨1, ![16]⟩) (i : (⟨1, ![16]⟩ : Shape).Idx) :
    shapeCast ⟨1, ![16]⟩ (extractStridedSlice ⟨3, ![16, 1, 1]⟩ ![0, 0, 0] x hs) hc i
      = x (ix3 (i 0) (0 : Fin 1) (0 : Fin 128)) := by
  refine (shapeCast_apply _ hc i (ix3 (i 0) (0 : Fin 1) (0 : Fin 1)) (by
    rw [Shape.rowMajor_val_three, Shape.rowMajor_val_one]
    show ((i 0).val * 1 + 0) * 1 + 0 = (i 0).val
    omega)).trans ?_
  exact extractStridedSlice_apply _ x hs _ _ (fun a => match a with
    | ⟨0, _⟩ => by show (i 0).val = 0 + (i 0).val; omega
    | ⟨1, _⟩ => rfl
    | ⟨2, _⟩ => rfl)

/-! ## Before the region -/

/-- The region finds the logits with each image's pixels flattened: entry (b, k, s) is the logit at row s / 512, column s % 512. -/
theorem V_logits (c : Dev nD) (b : Fin 16) (k : Fin 19) (s : Fin 262144) :
    (V m c main_v0 : S16x19x262144.Idx → EReal) (ix3 b k s)
      = (m ((c : Thread nD τ).loc main_arg0) : S16x19x512x512.Idx → EReal)
          (ix4 b k ⟨s.val / 512, by omega⟩ ⟨s.val % 512, Nat.mod_lt _ (by decide)⟩) := by
  -- the first host operation writes this array: the logits' reshape
  have e : (V m c main_v0 : S16x19x262144.Idx → EReal)
      = shapeCast S16x19x262144 (m ((c : Thread nD τ).loc main_arg0) : S16x19x512x512.Idx → EReal)
          shapeCasts_S16x19x512x512_S16x19x262144 := by
    show StableHlo.after hostOps0 (fun b => m (c, b)) (Proc.devRef .tc main_v0) = _
    after_results
    rfl
  exact (congrFun e (ix3 b k s)).trans (shapeCast_flat4_apply _ _ b k s)

/-- Likewise the labels. -/
theorem V_labels (c : Dev nD) (b : Fin 16) (s : Fin 262144) :
    (V m c main_v1 : S16x1x262144.Idx → BitVec 32) (ix3 b (0 : Fin 1) s)
      = (m ((c : Thread nD τ).loc main_arg1) : S16x512x512.Idx → BitVec 32)
          (ix3 b ⟨s.val / 512, by omega⟩ ⟨s.val % 512, Nat.mod_lt _ (by decide)⟩) := by
  have e : (V m c main_v1 : S16x1x262144.Idx → BitVec 32)
      = shapeCast S16x1x262144 (m ((c : Thread nD τ).loc main_arg1) : S16x512x512.Idx → BitVec 32)
          shapeCasts_S16x512x512_S16x1x262144 := by
    show StableHlo.after hostOps0 (fun b => m (c, b)) (Proc.devRef .tc main_v1) = _
    after_results
    rfl
  exact (congrFun e (ix3 b (0 : Fin 1) s)).trans (shapeCast_flat3_apply _ _ b 0 s)

/-- The region finds the confusion matrix softmaxed along its rows. -/
theorem V_ncm (c : Dev nD) :
    V m c main_v12 = Cert.Spec.ncmOf (F := Ideal) (m ((c : Thread nD τ).loc main_arg2)) := by
  -- the remaining fourteen operations before the region are the row softmax, operation for operation
  show StableHlo.after hostOps0 (fun b => m (c, b)) (Proc.devRef .tc main_v12) = _
  after_results
  rfl

/-! ## After the region -/

/-- After the region the first result is the softmax array with its pixel axis split back into rows and columns. -/
theorem tail_pred (c : Dev nD) (b : Fin 16) (k : Fin 19) (h w : Fin 512) :
    (Pipeline.afterTail₀ cfgs (dats m) 0 (V0 m) [hostOps1] c main_v14 : S16x19x512x512.Idx → EReal) (ix4 b k h w)
      = ((dats m 0 c).arrAt 3 cfg0.N : S16x19x262144.Idx → EReal) (ix3 b k (Cert.Spec.pix h w)) := by
  -- the reshape's operand is output window 3's array as the region leaves it
  have e : (Pipeline.afterTail₀ cfgs (dats m) 0 (V0 m) [hostOps1] c main_v14 : S16x19x512x512.Idx → EReal)
      = shapeCast S16x19x512x512 ((dats m 0 c).arrAt 3 cfg0.N : S16x19x262144.Idx → EReal)
          shapeCasts_S16x19x262144_S16x19x512x512 := by
    unfold Pipeline.afterTail₀
    show StableHlo.after hostOps1 _ (Proc.devRef .tc main_v14) = _
    after_results
    rw [show Pipeline.withArrays (cfgs 0).spec c (V0 m c) (fun w => (dats m 0 c).arrAt w (cfgs 0).N)
          (Proc.devRef .tc main_v13_0) = (dats m 0 c).arrAt 3 cfg0.N
        from Pipeline.withArrays_arr spec0 launch0.win.arr_inj c _ _ 3]
    rfl
  exact (congrFun e (ix4 b k h w)).trans (shapeCast_split4_apply _ _ b k h w)

/-- After the region the second result is the mean-and-negate of lane 0 of each image's accumulated loss. -/
theorem tail_loss (c : Dev nD) :
    Pipeline.afterTail₀ cfgs (dats m) 0 (V0 m) [hostOps1] c main_v21
      = Cert.Spec.lossTail (F := Ideal) (fun i : Cert.Spec.S16.Idx =>
          ((dats m 0 c).arrAt 4 cfg0.N : S16x1x128.Idx → EReal) (ix3 (i 0) (0 : Fin 1) (0 : Fin 128))) := by
  unfold Pipeline.afterTail₀
  show StableHlo.after hostOps1 _ (Proc.devRef .tc main_v21) = _
  after_results
  -- the slice's operand is output window 4's array as the region leaves it
  rw [show Pipeline.withArrays (cfgs 0).spec c (V0 m c) (fun w => (dats m 0 c).arrAt w (cfgs 0).N)
        (Proc.devRef .tc main_v13_1) = (dats m 0 c).arrAt 4 cfg0.N
      from Pipeline.withArrays_arr spec0 launch0.win.arr_inj c _ _ 4]
  -- what is left is the mean-and-negate on both sides; its arguments agree entry by entry
  refine congrArg (Cert.Spec.lossTail (F := Ideal)) (funext fun i => ?_)
  exact lane0_apply _ _ _ i

end Cert.KernelIdeal.HostSide

end
-- ==== Proof.LibSums.lean ====
/-
  Sums over an initial segment of the naturals, and over a finite index type of product size, cut
  into equal consecutive blocks: a sum over n · K consecutive indices is the sum, block by block, of
  the K entries of each of the n blocks. Stated once over the naturals, once over `Fin (n * K)`,
  and at the two literal factorizations of 262144 (32 blocks of 8192, and 512 rows of 512).
-/
import Mathlib.Algebra.BigOperators.Fin

namespace Cert.LibSums

/-- Entry `l` of block `j`, of `n` blocks of `K` entries each, lies among the first `n * K` positions:
    `j * K + l < (j + 1) * K ≤ n * K`. -/
private theorem block_entry_lt {n K j l : ℕ} (hj : j < n) (hl : l < K) : j * K + l < n * K :=
  calc j * K + l < j * K + K := Nat.add_lt_add_left hl _
    _ = (j + 1) * K := (Nat.succ_mul j K).symm
    _ ≤ n * K := Nat.mul_le_mul_right K hj

/-- A sum over the first `n * K` naturals is the sum over the `n` blocks of the sum over each block's
    `K` consecutive entries: by induction on the number of blocks, the last block split off. -/
theorem sum_fin_blocks {M : Type*} [AddCommMonoid M] (n K : ℕ) (f : ℕ → M) : ∑ s ∈ Finset.range (n * K), f s = ∑ j ∈ Finset.range n, ∑ l ∈ Finset.range K, f (j * K + l) := by
  induction n with
  | zero => simp
  | succ n ih => rw [Nat.succ_mul, Finset.sum_range_add, Finset.sum_range_succ, ih]

/-- The same over a finite index type of `N = n * K` positions: the function is extended by zero past
    the end, summed over the naturals block by block, and each range sum read back over its `Fin`. -/
private theorem sum_fin_mul {M : Type*} [AddCommMonoid M] (n K N : ℕ) (hN : N = n * K) (f : Fin N → M) :
    ∑ s : Fin N, f s
      = ∑ j : Fin n, ∑ l : Fin K, f ⟨j.val * K + l.val, hN ▸ block_entry_lt j.isLt l.isLt⟩ := by
  subst hN
  let g : ℕ → M := fun s => if h : s < n * K then f ⟨s, h⟩ else 0
  have hg : ∀ (s : ℕ) (h : s < n * K), g s = f ⟨s, h⟩ := fun s h => dif_pos h
  calc ∑ s : Fin (n * K), f s
      = ∑ s : Fin (n * K), g s.val := Finset.sum_congr rfl fun s _ => (hg s.val s.isLt).symm
    _ = ∑ s ∈ Finset.range (n * K), g s := (Finset.sum_range g).symm
    _ = ∑ j ∈ Finset.range n, ∑ l ∈ Finset.range K, g (j * K + l) := sum_fin_blocks n K g
    _ = ∑ j : Fin n, ∑ l ∈ Finset.range K, g (j.val * K + l) :=
        Finset.sum_range fun j => ∑ l ∈ Finset.range K, g (j * K + l)
    _ = ∑ j : Fin n, ∑ l : Fin K, g (j.val * K + l.val) :=
        Finset.sum_congr rfl fun j _ => Finset.sum_range fun l => g (j.val * K + l)
    _ = ∑ j : Fin n, ∑ l : Fin K, f ⟨j.val * K + l.val, block_entry_lt j.isLt l.isLt⟩ :=
        Finset.sum_congr rfl fun j _ => Finset.sum_congr rfl fun l _ => hg _ _

/-- The 262144 positions as 32 consecutive blocks of 8192. -/
theorem sum_pixels_blocks {M : Type*} [AddCommMonoid M] (f : Fin 262144 → M) : ∑ s : Fin 262144, f s = ∑ k : Fin 32, ∑ l : Fin 8192, f ⟨k.val * 8192 + l.val, by omega⟩ :=
  sum_fin_mul 32 8192 262144 (by decide) f

/-- The 262144 positions as 512 consecutive rows of 512. -/
theorem sum_pixels_rows {M : Type*} [AddCommMonoid M] (f : Fin 262144 → M) : ∑ s : Fin 262144, f s = ∑ h : Fin 512, ∑ w : Fin 512, f ⟨h.val * 512 + w.val, by omega⟩ :=
  sum_fin_mul 512 512 262144 (by decide) f

end Cert.LibSums
-- ==== Proof.KernelValue.lean ====
/-
  What the kernel's program leaves in its two results, on the extended reals.

  The grid is 16 images × 32 pixel blocks; point t is image t / 32, block t % 32, and its
  blocks of the flattened logits and labels are pixels (t % 32)·8192 + l, l < 8192.
  The softmax block is written whole at every point and written back at every point, so
  the softmax array ends, pixel by pixel, at the softmax of the pixel's logit column.
  The loss block of an image is reset at the image's first point and gains the block's loss at
  every point; by induction on the point it holds the sum of the image's block losses so far, and
  it is written back after the image's last point: the image's 32 block losses summed. A block's
  loss is the sum over its pixels of the per-pixel loss, and 32 blocks of 8192 pixels are the
  image's 262144 pixels.
-/
import proofs.«422314_j88802743812528_1_alg».proof.Proof.KernelPieces
import proofs.«422314_j88802743812528_1_alg».proof.Proof.KernelPay
import proofs.«422314_j88802743812528_1_alg».proof.Proof.KernelHost
import proofs.«422314_j88802743812528_1_alg».proof.Proof.Spec
import proofs.«422314_j88802743812528_1_alg».proof.Proof.LibSums
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, and the point's blocks, at their literal types -/

abbrev xarr (c : Dev nD) : FVec Ideal S16x19x262144 .f32 := V m c main_v0
abbrev tarr (c : Dev nD) : IVec S16x1x262144 32 := V m c main_v1
abbrev narr (c : Dev nD) : FVec Ideal S19x19 .f32 := V m c main_v12
abbrev xblk (c : Dev nD) (t : Fin cfg0.N) : Vec Ideal S1x19x8192 .f32 := iblk m c 0 t
abbrev tblk (c : Dev nD) (t : Fin cfg0.N) : Vec Ideal S1x1x8192 .i32 := iblk m c 1 t
abbrev nblk (c : Dev nD) (t : Fin cfg0.N) : Vec Ideal S19x19 .f32 := iblk m c 2 t

theorem hN : cfg0.N = 512 := N_0

/-- The image and the pixel block of a point. -/
theorem lt512 (t : Fin cfg0.N) : t.val < 512 := lt_of_lt_of_eq t.isLt hN
def img (t : Fin cfg0.N) : Fin 16 := ⟨t.val / 32, by have := lt512 t; omega⟩
def blkOf (t : Fin cfg0.N) : Fin 32 := ⟨t.val % 32, Nat.mod_lt _ (by decide)⟩
/-- Pixel `l` of the point's block, among the image's flattened pixels. -/
def pixAt (t : Fin cfg0.N) (l : Fin 8192) : Fin 262144 := ⟨(t.val % 32) * 8192 + l.val, by have := l.isLt; have : t.val % 32 < 32 := Nat.mod_lt _ (by decide); omega⟩

/-- The windows' block indices over the grid: the logits', the labels' and the softmax's are (image, 0, block);
    the confusion matrix's is (0, 0); the loss's is (image, 0, 0). -/
theorem idx0 : ∀ t : Fin cfg0.N, win0_0.index t 0 = t.val / 32 ∧ win0_0.index t 1 = 0 ∧ win0_0.index t 2 = t.val % 32 :=
  (by decide +kernel : ∀ t : Fin grid0.N, win0_0.index t 0 = t.val / 32 ∧ win0_0.index t 1 = 0 ∧ win0_0.index t 2 = t.val % 32)
theorem idx1 : ∀ t : Fin cfg0.N, win0_1.index t 0 = t.val / 32 ∧ win0_1.index t 1 = 0 ∧ win0_1.index t 2 = t.val % 32 :=
  (by decide +kernel : ∀ t : Fin grid0.N, win0_1.index t 0 = t.val / 32 ∧ win0_1.index t 1 = 0 ∧ win0_1.index t 2 = t.val % 32)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 32 ∧ win0_3.index t 1 = 0 ∧ win0_3.index t 2 = t.val % 32 :=
  (by decide +kernel : ∀ t : Fin grid0.N, win0_3.index t 0 = t.val / 32 ∧ win0_3.index t 1 = 0 ∧ win0_3.index t 2 = t.val % 32)
theorem idx4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- The point's logit block at (0, k, l) is the flattened logits at (image, k, pixel). -/
theorem xblk_apply (c : Dev nD) (t : Fin cfg0.N) (k : Fin 19) (l : Fin 8192) :
    xblk m c t (ix3 (0 : Fin 1) k l) = xarr m c (ix3 (img t) k (pixAt t l)) := by
  unfold xblk iblk
  rw [View.read_apply]
  show V m c main_v0 _ = V m c main_v0 _
  congr 1
  funext a
  apply Fin.ext
  match a with
  | ⟨0, _⟩ => show win0_0.index t 0 * 1 + 1 * 0 = t.val / 32; rw [(idx0 t).1]; omega
  | ⟨1, _⟩ => show win0_0.index t 1 * 19 + 1 * k.val = k.val; rw [(idx0 t).2.1]; omega
  | ⟨2, _⟩ => show win0_0.index t 2 * 8192 + 1 * l.val = (t.val % 32) * 8192 + l.val; rw [(idx0 t).2.2]; omega

/-- The point's label block at (0, 0, l) is the flattened labels at (image, 0, pixel). -/
theorem tblk_apply (c : Dev nD) (t : Fin cfg0.N) (l : Fin 8192) :
    tblk m c t (ix3 (0 : Fin 1) (0 : Fin 1) l) = tarr m c (ix3 (img t) (0 : Fin 1) (pixAt t l)) := by
  unfold tblk iblk
  rw [View.read_apply]
  show V m c main_v1 _ = V m c main_v1 _
  congr 1
  funext a
  apply Fin.ext
  match a with
  | ⟨0, _⟩ => show win0_1.index t 0 * 1 + 1 * 0 = t.val / 32; rw [(idx1 t).1]; omega
  | ⟨1, _⟩ => show win0_1.index t 1 * 1 + 1 * 0 = 0; rw [(idx1 t).2.1]
  | ⟨2, _⟩ => show win0_1.index t 2 * 8192 + 1 * l.val = (t.val % 32) * 8192 + l.val; rw [(idx1 t).2.2]; omega

/-- The point's confusion block is the whole softmaxed matrix. -/
theorem nblk_apply (c : Dev nD) (t : Fin cfg0.N) (a b : Fin 19) :
    nblk m c t (ix2 a b) = narr m c (ix2 a b) := by
  unfold nblk iblk
  rw [View.read_apply]
  show V m c main_v12 _ = V m c main_v12 _
  congr 1
  funext d
  apply Fin.ext
  match d with
  | ⟨0, _⟩ => show win0_2.index t 0 * 19 + 1 * a.val = a.val; rw [(idx2 t).1]; omega
  | ⟨1, _⟩ => show win0_2.index t 1 * 19 + 1 * b.val = b.val; rw [(idx2 t).2]; omega

/-- The region's arrays in terms of the arguments (the host side's lemmas, restated over the names above). -/
theorem xarr_apply (c : Dev nD) (b : Fin 16) (k : Fin 19) (s : Fin 262144) :
    xarr m c (ix3 b k s) = (m ((c : Thread nD τ).loc main_arg0) : S16x19x512x512.Idx → EReal)
      (ix4 b k ⟨s.val / 512, by omega⟩ ⟨s.val % 512, Nat.mod_lt _ (by decide)⟩) := HostSide.V_logits m c b k s
theorem tarr_apply (c : Dev nD) (b : Fin 16) (s : Fin 262144) :
    tarr m c (ix3 b (0 : Fin 1) s) = (m ((c : Thread nD τ).loc main_arg1) : S16x512x512.Idx → BitVec 32)
      (ix3 b ⟨s.val / 512, by omega⟩ ⟨s.val % 512, Nat.mod_lt _ (by decide)⟩) := HostSide.V_labels m c b s
theorem narr_eq (c : Dev nD) : narr m c = Cert.Spec.ncmOf (F := Ideal) (m ((c : Thread nD τ).loc main_arg2)) := HostSide.V_ncm m c

/-! ## What the two outputs hold after each point -/

/-- The loss of a point's block: the body's sum payload of the point's three blocks. -/
def bsum (c : Dev nD) (t : Fin cfg0.N) : EReal :=
  k0_pay5 (F := Ideal) (xblk m c t) (tblk m c t) (nblk m c t) (ix1 (0 : Fin 1))

/-- The same by the point's number (zero past the grid). -/
def bsumN (c : Dev nD) (s : ℕ) : EReal := if h : s < cfg0.N then bsum m c ⟨s, h⟩ else 0

theorem bsumN_of_lt (c : Dev nD) (s : ℕ) (h : s < cfg0.N) : bsumN m c s = bsum m c ⟨s, h⟩ := dif_pos h

/-- After every point the softmax buffer holds the softmax payload of the point's logit block. -/
theorem outsAt_pred (c : Dev nD) (t : Fin cfg0.N) :
    (outsAt0 m c t.val t.isLt).1 = k0_pay3 (F := Ideal) (k0_pay4 (xblk m c t)) := by
  by_cases h0 : t.val % 32 = 0
  · rw [outsAt0_A m c t h0]
    dsimp only
    exact Pieces.predA (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  · rw [outsAt0_B m c t h0]
    dsimp only
    exact Pieces.predB (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).2

/-- After point n every lane of the loss buffer holds the sum of the block losses of n's image up to n:
    the points n − n % 32, …, n. By induction on the point. -/
theorem outsAt_acc (c : Dev nD) : ∀ (n : ℕ) (h : n < cfg0.N),
    (outsAt0 m c n h).2 = fun _ => ∑ k ∈ Finset.range (n % 32 + 1), bsumN m c (n - n % 32 + k)
  | 0, h => by
    rw [outsAt0_A m c ⟨0, h⟩ rfl]
    dsimp only
    rw [Pieces.accA (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩) (iblk m c 2 ⟨0, h⟩)]
    funext j
    rw [Pay.pay2_apply, Pay.pay1_apply, zero_add]
    show bsum m c ⟨0, h⟩ = ∑ k ∈ Finset.range 1, bsumN m c (0 + k)
    rw [Finset.sum_range_one, bsumN_of_lt m c _ h]
  | n + 1, h => by
    by_cases h0 : (n + 1) % 32 = 0
    · rw [outsAt0_A m c ⟨n + 1, h⟩ h0]
      dsimp only
      rw [Pieces.accA (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (iblk m c 0 ⟨n + 1, h⟩) (iblk m c 1 ⟨n + 1, h⟩) (iblk m c 2 ⟨n + 1, h⟩)]
      funext j
      rw [Pay.pay2_apply, Pay.pay1_apply, zero_add]
      have e : (∑ k ∈ Finset.range ((n + 1) % 32 + 1), bsumN m c (n + 1 - (n + 1) % 32 + k)) = bsumN m c (n + 1) := by
        rw [h0]; simp
      rw [e, bsumN_of_lt m c _ h]
      rfl
    · have ih : (outsAt0 m c ((⟨n + 1, h⟩ : Fin cfg0.N).val - 1) (Nat.lt_of_le_of_lt (Nat.sub_le _ _) (⟨n + 1, h⟩ : Fin cfg0.N).isLt)).2
          = fun _ => ∑ k ∈ Finset.range (n % 32 + 1), bsumN m c (n - n % 32 + k) := outsAt_acc c n (Nat.lt_of_succ_lt h)
      rw [outsAt0_B m c ⟨n + 1, h⟩ h0]
      dsimp only
      rw [Pieces.accB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩) (iblk m c 2 ⟨n + 1, h⟩)
        (outsAt0 m c ((⟨n + 1, h⟩ : Fin cfg0.N).val - 1) (Nat.lt_of_le_of_lt (Nat.sub_le _ _) (⟨n + 1, h⟩ : Fin cfg0.N).isLt)).2]
      funext j
      rw [Pay.pay2_apply, ih]
      have e1 : (n + 1) % 32 = n % 32 + 1 := by omega
      have e2 : n + 1 - (n % 32 + 1) = n - n % 32 := by omega
      have e3 : n - n % 32 + (n % 32 + 1) = n + 1 := by omega
      show (∑ k ∈ Finset.range (n % 32 + 1), bsumN m c (n - n % 32 + k)) + bsum m c ⟨n + 1, h⟩
        = ∑ k ∈ Finset.range ((n + 1) % 32 + 1), bsumN m c (n + 1 - (n + 1) % 32 + k)
      rw [e1, e2, Finset.sum_range_succ (fun k => bsumN m c (n - n % 32 + k)) (n % 32 + 1), e3, bsumN_of_lt m c _ h]

/-! ## The two arrays after the run -/

/-- The softmax array: entry (b, k, s) is the softmax at class k of pixel s's logit column in image b. -/
def G3 (c : Dev nD) : FVec Ideal S16x19x262144 .f32 :=
  fun i => Cert.Spec.smax (fun k : Fin 19 => xarr m c (ix3 (i 0) k (i 2))) (i 1)

/-- The loss array: every lane of image b holds the sum of the image's 32 block losses. -/
def G4 (c : Dev nD) : FVec Ideal S16x1x128 .f32 :=
  fun i => ∑ k ∈ Finset.range 32, bsumN m c (32 * (i 0).val + k)

/-- The softmax payload of a point's block, entry by entry, is the softmax array at the block's place. -/
theorem predBlock (c : Dev nD) (t : Fin cfg0.N) :
    (k0_pay3 (F := Ideal) (k0_pay4 (xblk m c t)) : S1x19x8192.Idx → EReal)
      = fun j => G3 m c (ix3 (img t) (j 1) (pixAt t (j 2))) := by
  funext j
  obtain ⟨u, k, l, rfl⟩ : ∃ (u : Fin 1) (k : Fin 19) (l : Fin 8192), j = ix3 u k l := ⟨j 0, j 1, j 2, eq_ix3 j⟩
  obtain rfl : u = 0 := Subsingleton.elim _ _
  rw [Pay.pay3_apply, Pay.pay4_apply]
  exact congrArg (fun v : Fin 19 → EReal => Cert.Spec.smax v k) (funext fun k' => xblk_apply m c t k' l)

/-- What point t writes back of the softmax is block t of the softmax array. -/
theorem flushed3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, outsAt_pred, predBlock]
  funext j
  rw [View.read_apply]
  show G3 m c (ix3 (img t) (j 1) (pixAt t (j 2))) = G3 m c (((cfg0.win 3).blk t).view.emb j)
  congr 1
  funext a
  apply Fin.ext
  have hj0 : (j 0).val < 1 := (j 0).isLt
  match a with
  | ⟨0, _⟩ => show t.val / 32 = win0_3.index t 0 * 1 + 1 * (j 0).val; rw [(idx3 t).1]; omega
  | ⟨1, _⟩ => show (j 1).val = win0_3.index t 1 * 19 + 1 * (j 1).val; rw [(idx3 t).2.1]; omega
  | ⟨2, _⟩ => show (t.val % 32) * 8192 + (j 2).val = win0_3.index t 2 * 8192 + 1 * (j 2).val; rw [(idx3 t).2.2]; omega

/-- What a last point of an image writes back of the loss is the image's block of the loss array. -/
theorem flushed4 (c : Dev nD) (t : Fin cfg0.N) (hf : (cfg0.win 4).flush t = true) :
    (dats m 0 c).flushed 4 t = ((cfg0.win 4).blk t).view.read (Elt Ideal) (G4 m c) := by
  have h31 : t.val % 32 = 31 := (flush0_4 t).mp hf
  show (cfg0.win 4).cut (grid0.coords t) ((dats m 0 c).after 4 t) = _
  rw [after0_4, outsAt_acc]
  funext j
  rw [View.read_apply]
  show (∑ k ∈ Finset.range (t.val % 32 + 1), bsumN m c (t.val - t.val % 32 + k)) = G4 m c (((cfg0.win 4).blk t).view.emb j)
  have hj0 : (j 0).val < 1 := (j 0).isLt
  have e0 : ((((cfg0.win 4).blk t).view.emb j) 0).val = t.val / 32 := by
    show win0_4.index t 0 * 1 + 1 * (j 0).val = t.val / 32; rw [(idx4 t).1]; omega
  unfold G4
  rw [e0, h31]
  have e1 : t.val - 31 = 32 * (t.val / 32) := by omega
  rw [e1]

/-- Membership in a point's block, axis by axis. -/
theorem mem_blk3 (t : Fin cfg0.N) (i : S16x19x262144.Idx) :
    i ∈ ((cfg0.win 3).blk t).view.set ↔ ∀ a : Fin 3, win0_3.index t a * S1x19x8192.size a ≤ (i a).val ∧ (i a).val < win0_3.index t a * S1x19x8192.size a + S1x19x8192.size a := by
  show i ∈ ((View.whole main_v13_0).slice (win0_3.rect t)).set ↔ _
  rw [View.set_slice_whole, Rect.mem_set_unit]
  exact Iff.rfl

theorem mem_blk4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v13_1).slice (win0_4.rect t)).set ↔ _
  rw [View.set_slice_whole, Rect.mem_set_unit]
  exact Iff.rfl

/-- Every entry of the softmax array is in the block of the point (image, pixel / 8192). -/
theorem final3 (c : Dev nD) : (dats m 0 c).arrAt 3 cfg0.N = G3 m c :=
  (dats m 0 c).arrAt_eq_of_cover 3 (G3 m c) (fun t _ => flushed3 m c t) fun i => by
    have h0 : (i 0).val < 16 := (i 0).isLt
    have h1 : (i 1).val < 19 := (i 1).isLt
    have h2 : (i 2).val < 262144 := (i 2).isLt
    have hlt : (i 0).val * 32 + (i 2).val / 8192 < cfg0.N := by rw [hN]; omega
    refine ⟨⟨(i 0).val * 32 + (i 2).val / 8192, hlt⟩, flush0_3 _, ?_⟩
    rw [mem_blk3]
    obtain ⟨e0, e1, e2⟩ := idx3 ⟨(i 0).val * 32 + (i 2).val / 8192, hlt⟩
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 19 ≤ (i 1).val ∧ (i 1).val < win0_3.index _ 1 * 19 + 19; rw [e1]; omega
    | ⟨2, _⟩ => show win0_3.index _ 2 * 8192 ≤ (i 2).val ∧ (i 2).val < win0_3.index _ 2 * 8192 + 8192; rw [e2]; dsimp only; omega

/-- Every entry of the loss array is in the block written back after its image's last point. -/
theorem final4 (c : Dev nD) : (dats m 0 c).arrAt 4 cfg0.N = G4 m c :=
  (dats m 0 c).arrAt_eq_of_cover 4 (G4 m c) (fun t hf => flushed4 m c t hf) fun i => by
    have h0 : (i 0).val < 16 := (i 0).isLt
    have h1 : (i 1).val < 1 := (i 1).isLt
    have h2 : (i 2).val < 128 := (i 2).isLt
    have hlt : (i 0).val * 32 + 31 < cfg0.N := by rw [hN]; omega
    refine ⟨⟨(i 0).val * 32 + 31, hlt⟩, (flush0_4 _).mpr (by dsimp only; omega), ?_⟩
    rw [mem_blk4]
    obtain ⟨e0, e1, e2⟩ := idx4 ⟨(i 0).val * 32 + 31, hlt⟩
    intro a
    match a with
    | ⟨0, _⟩ => show win0_4.index _ 0 * 1 ≤ (i 0).val ∧ (i 0).val < win0_4.index _ 0 * 1 + 1; rw [e0]; dsimp only; omega
    | ⟨1, _⟩ => show win0_4.index _ 1 * 1 ≤ (i 1).val ∧ (i 1).val < win0_4.index _ 1 * 1 + 1; rw [e1]; omega
    | ⟨2, _⟩ => show win0_4.index _ 2 * 128 ≤ (i 2).val ∧ (i 2).val < win0_4.index _ 2 * 128 + 128; rw [e2]; omega

/-! ## The two results in terms of the arguments -/

/-- FIRST RESULT: the softmax array with its pixel axis split back is the per-pixel softmax of the logits. -/
theorem result_pred (c : Dev nD) :
    Pipeline.afterTail₀ cfgs (dats m) 0 (V0 m) [hostOps1] c main_v14 = Cert.Spec.predG (m ((c : Thread nD τ).loc main_arg0)) := by
  funext i
  obtain ⟨b, k, h, w, rfl⟩ : ∃ (b : Fin 16) (k : Fin 19) (h w : Fin 512), i = ix4 b k h w := ⟨i 0, i 1, i 2, i 3, eq_ix4 i⟩
  refine (HostSide.tail_pred m c b k h w).trans ?_
  rw [final3]
  show Cert.Spec.smax (fun k' : Fin 19 => xarr m c (ix3 b k' (Cert.Spec.pix h w))) k
    = Cert.Spec.smax (Cert.Spec.lcol (m ((c : Thread nD τ).loc main_arg0)) b (Cert.Spec.pix h w)) k
  exact congrArg (fun v : Fin 19 → EReal => Cert.Spec.smax v k) (funext fun k' => xarr_apply m c b k' (Cert.Spec.pix h w))

/-- The hypothesis the loss needs: every label is a class. -/
abbrev LabelsInRange : Prop :=
  ∀ (c : Dev nD) (i : S16x512x512.Idx), BitVec.toNat ((m ((c : Thread nD τ).loc main_arg1) : S16x512x512.Idx → BitVec 32) i) < 19

/-- The per-pixel loss of image b at flattened pixel s, from the arguments. -/
def pixTerm (c : Dev nD) (b : Fin 16) (s : Fin 262144) : EReal :=
  Cert.Spec.pixLoss (Cert.Spec.gcol (Cert.Spec.ncmOf (F := Ideal) (m ((c : Thread nD τ).loc main_arg2))) (Cert.Spec.tcol (m ((c : Thread nD τ).loc main_arg1)) b s)) (Cert.Spec.lcol (m ((c : Thread nD τ).loc main_arg0)) b s)

/-- The loss of block k of image b is the sum of the per-pixel losses of its 8192 pixels. -/
theorem bsum_eq (hr : LabelsInRange m) (c : Dev nD) (b : Fin 16) (k : Fin 32) (hlt : 32 * b.val + k.val < cfg0.N) :
    bsum m c ⟨32 * b.val + k.val, hlt⟩ = ∑ l : Fin 8192, pixTerm m c b ⟨k.val * 8192 + l.val, by omega⟩ := by
  have hi : img ⟨32 * b.val + k.val, hlt⟩ = b := Fin.ext (by show (32 * b.val + k.val) / 32 = b.val; omega)
  have hp : ∀ l : Fin 8192, pixAt ⟨32 * b.val + k.val, hlt⟩ l = ⟨k.val * 8192 + l.val, by omega⟩ := fun l =>
    Fin.ext (by show (32 * b.val + k.val) % 32 * 8192 + l.val = k.val * 8192 + l.val; have : (32 * b.val + k.val) % 32 = k.val := by omega
                rw [this])
  have hrT : ∀ l : Fin 8192, BitVec.toNat (tblk m c ⟨32 * b.val + k.val, hlt⟩ (ix3 (0 : Fin 1) (0 : Fin 1) l)) < 19 := fun l => by
    rw [tblk_apply, tarr_apply]; exact hr c _
  unfold bsum
  refine (Pay.pay5_apply (xblk m c ⟨32 * b.val + k.val, hlt⟩) (tblk m c ⟨32 * b.val + k.val, hlt⟩) (nblk m c ⟨32 * b.val + k.val, hlt⟩) hrT (ix1 (0 : Fin 1))).trans ?_
  refine Finset.sum_congr rfl fun l _ => ?_
  have e1 : tblk m c ⟨32 * b.val + k.val, hlt⟩ (ix3 (0 : Fin 1) (0 : Fin 1) l) = Cert.Spec.tcol (m ((c : Thread nD τ).loc main_arg1)) b ⟨k.val * 8192 + l.val, by omega⟩ := by
    rw [tblk_apply, tarr_apply, hi, hp]; rfl
  have e2 : (fun k' : Fin 19 => xblk m c ⟨32 * b.val + k.val, hlt⟩ (ix3 (0 : Fin 1) k' l)) = Cert.Spec.lcol (m ((c : Thread nD τ).loc main_arg0)) b ⟨k.val * 8192 + l.val, by omega⟩ :=
    funext fun k' => by rw [xblk_apply, xarr_apply, hi, hp]; rfl
  have e3 : ∀ lab : BitVec 32, Cert.Spec.gcol (nblk m c ⟨32 * b.val + k.val, hlt⟩) lab = Cert.Spec.gcol (Cert.Spec.ncmOf (F := Ideal) (m ((c : Thread nD τ).loc main_arg2))) lab := fun lab =>
    funext fun c' => by unfold Cert.Spec.gcol; rw [nblk_apply, narr_eq]
  rw [e1, e2, e3]
  rfl

/-- An image's 32 block losses sum to the image's loss: 32 blocks of 8192 pixels are its 262144 pixels. -/
theorem imgSum (hr : LabelsInRange m) (c : Dev nD) (b : Fin 16) :
    ∑ k ∈ Finset.range 32, bsumN m c (32 * b.val + k) = Cert.Spec.imgLoss (m ((c : Thread nD τ).loc main_arg0)) (m ((c : Thread nD τ).loc main_arg1)) (m ((c : Thread nD τ).loc main_arg2)) b := by
  have hb : b.val < 16 := b.isLt
  unfold Cert.Spec.imgLoss
  rw [Cert.LibSums.sum_pixels_blocks, Finset.sum_range]
  refine Finset.sum_congr rfl fun k _ => ?_
  have hk : k.val < 32 := k.isLt
  have hlt : 32 * b.val + k.val < cfg0.N := lt_of_lt_of_eq (by omega : 32 * b.val + k.val < 512) hN.symm
  rw [bsumN_of_lt m c _ hlt]
  exact bsum_eq m hr c b k hlt

/-- SECOND RESULT: lane 0 of each image's accumulated loss through the mean-and-negate is the batch loss. -/
theorem result_loss (hr : LabelsInRange m) (c : Dev nD) :
    Pipeline.afterTail₀ cfgs (dats m) 0 (V0 m) [hostOps1] c main_v21 = Cert.Spec.batchG (m ((c : Thread nD τ).loc main_arg0)) (m ((c : Thread nD τ).loc main_arg1)) (m ((c : Thread nD τ).loc main_arg2)) := by
  rw [HostSide.tail_loss]
  refine congrArg (Cert.Spec.lossTail (F := Ideal)) (funext fun i => ?_)
  rw [final4]
  exact imgSum m hr c (i 0)

/-! ## The run, read -/

/-- From any memory with zero counters whose labels are classes, every weakly fair execution of the kernel's program
    terminates with the first result at the per-pixel softmax, the second at the batch loss, the arguments unchanged. -/
theorem run (hr : LabelsInRange m) :
    θ_run defs (onTc (τ := τ) (main (F := Ideal))) ⟨m, fun _ => 0, ρ⟩ fun r => ∀ c : Dev nD,
      r.2.mem ((c.tc : Thread nD τ).loc main_v14) = Cert.Spec.predG (m ((c : Thread nD τ).loc main_arg0))
      ∧ r.2.mem ((c.tc : Thread nD τ).loc main_v21) = Cert.Spec.batchG (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (result_pred m c),
     ((h c).2 main_v21 (Pipeline.mem_restRefs_of main_v21 (by decide) (by decide))).trans (result_loss m hr c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.lean ====
/-
  The certificate: the kernel (a per-pixel softmax over 19 classes and an expectation-style loss
  accumulated over pixel blocks of each image) against its jnp reference, on labels that are classes.

  Both programs compute, per pixel, the softmax of the logit column, and from it and the label's
  column of the row-softmaxed confusion matrix the pixel's loss; the batch loss is minus the mean
  over images of the mean over pixels. The kernel gathers the confusion column by a product with a
  one-hot matrix (on a label that is a class the sum of 19 products has one survivor) and sums an
  image's pixels block by block across its grid; the reference takes the column by a gather
  (which wraps negative labels and fills labels past 18 — neither happens on a class) and sums over
  rows and columns. On the extended reals sums may be regrouped freely, so the two are one
  function of the arguments. No finiteness is used: the two sides are the same expression of the
  same entries, and 0 · x = 0, 1 · x = x, x / 1 = x hold for every extended real.

  The frames of the two kernel programs are the generated class-R frames; the reference's frame
  is its run with the results dropped; the idealization rewrote nothing.
-/
import proofs.«422314_j88802743812528_1_alg».proof.Defs
import proofs.«422314_j88802743812528_1_alg».proof.Proof.Gen.Kernel
import proofs.«422314_j88802743812528_1_alg».proof.Proof.Gen.Kernel.Frame
import proofs.«422314_j88802743812528_1_alg».proof.Proof.Gen.KernelIdeal
import proofs.«422314_j88802743812528_1_alg».proof.Proof.Gen.KernelIdeal.Frame
import proofs.«422314_j88802743812528_1_alg».proof.Proof.Gen.ReferenceIdeal
import proofs.«422314_j88802743812528_1_alg».proof.Proof.Gen.Pre_finite_inputs
import proofs.«422314_j88802743812528_1_alg».proof.Proof.Spec
import proofs.«422314_j88802743812528_1_alg».proof.Proof.PreRange
import proofs.«422314_j88802743812528_1_alg».proof.Proof.RefRun
import proofs.«422314_j88802743812528_1_alg».proof.Proof.RefValue
import proofs.«422314_j88802743812528_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_reference : Cert.frame_ReferenceIdeal := fun m ρ _ =>
  (θ_run Cert.ReferenceIdeal.defs _ _).mono (fun _ h c => (h c).2.2) (Cert.ReferenceIdeal.Run.run (F := Ideal) m ρ)

theorem preserves : Cert.preserves_Kernel_KernelIdeal := trivial

/-- Under the precondition the labels are classes; then the kernel's two results (its run, read) and the
    reference's (its run, read at an index) are the same functions of arguments that agree. -/
theorem algebraic : Cert.algebraic_KernelIdeal_ReferenceIdeal := by
  intro m ρ m' ρ' hpre hagree
  have hr : Cert.KernelIdeal.KValue.LabelsInRange m := fun c => Cert.Proof.PreRange.label_range _ _ _ (hpre c)
  refine ⟨fun c => Cert.Spec.predG (m ((c.tc : Thread Cert.KernelIdeal.nD Cert.KernelIdeal.τ).loc Cert.KernelIdeal.main_arg0)),
    fun c => Cert.Spec.batchG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ hr, ?_⟩
  refine (θ_run Cert.ReferenceIdeal.defs _ _).mono (fun _ h c => ⟨?_, ?_, (h c).2.2.1, (h c).2.2.2.1, (h c).2.2.2.2⟩)
    (Cert.ReferenceIdeal.Run.run (F := Ideal) m' ρ')
  · rw [(h c).1, (hagree c).1]
    exact Cert.ReferenceIdeal.RefValue.refPred_eq _
  · rw [(h c).2.1, (hagree c).1, (hagree c).2.1, (hagree c).2.2]
    exact congrArg (Cert.Spec.lossTail (F := Ideal)) (Cert.ReferenceIdeal.RefValue.refLossSum_eq _ _ _ (hr c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
